-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x96 : Shape := ⟨2, ![128, 96]⟩
abbrev S96 : Shape := ⟨1, ![96]⟩
abbrev S96x40 : Shape := ⟨2, ![96, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x96 : S_.BroadcastsInDim S128x96 (![] : Fin 0 → Fin S128x96.rank)
  reducesTo_S128x96_S_d0_1 : S128x96.ReducesTo [0, 1] S_
  bcast_S_S96 : S_.BroadcastsInDim S96 (![] : Fin 0 → Fin S96.rank)
  reducesTo_S96_S_d0 : S96.ReducesTo [0] S_
  bcast_S_S96x40 : S_.BroadcastsInDim S96x40 (![] : Fin 0 → Fin S96x40.rank)
  reducesTo_S96x40_S_d0_1 : S96x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S96x40 .f32) (main_arg5 : FVec F S40 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96x40 .f32 := Host.absf main_arg4
  let main_cst_6 : FVec F S_ .f32 := constant S_ .f32 0x7F800000#32
  let main_v20 : FVec F S96x40 .f32 := broadcastInDim S96x40 ![] bcast_S_S96x40 main_cst_6
  let main_v21 : IVec S96x40 1 := cmpf .olt main_v19 main_v20
  let main_c_7 : IVec S_ 1 := constantI S_ 1 1#1
  let main_v22 : IVec S_ 1 := (fun x v => Host.reduce IntOp.andi x v reducesTo_S96x40_S_d0_1 h_S_) main_v21 main_c_7
  let main_v23 : IVec S_ 1 := andi main_v18 main_v22
  let main_v24 : FVec F S40 .f32 := Host.absf main_arg5
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S50000x128 .f32) (main_arg1 : FVec F S800000 .f32) (main_arg2 : FVec F S128x96 .f32) (main_arg3 : FVec F S96 .f32) (main_arg4 : FVec F S96x40 .f32) (main_arg5 : FVec F S40 .f32) (main_arg6 : IVec S800000 32) (main_arg7 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x96 .f32 := Host.absf main_arg2
  let main_cst_2 : FVec F S_ .f32 := constant S_ .f32 0x7F800000#32
  let main_v10 : FVec F S128x96 .f32 := broadcastInDim S128x96 ![] bcast_S_S128x96 main_cst_2
  let main_v11 : IVec S128x96 1 := cmpf .olt main_v9 main_v10
  let main_c_3 : IVec S_ 1 := constantI S_ 1 1#1
  let main_v12 : IVec S_ 1 := (fun x v => Host.reduce IntOp.andi x v reducesTo_S128x96_S_d0_1 h_S_) main_v11 main_c_3
  let main_v13 : IVec S_ 1 := andi main_v8 main_v12
  let main_v14 : FVec F S96 .f32 := Host.absf main_arg3
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg4 main_arg5 main_v13 main_v16
-- ==== Kernel.lean ====
abbrev S50000x128 : Shape := ⟨2, ![50000, 128]⟩
abbrev S800000 : Shape := ⟨1, ![800000]⟩
abbrev S128x96 : Shape := ⟨2, ![128, 96]⟩
abbrev S96 : Shape := ⟨1, ![96]⟩
abbrev S96x40 : Shape := ⟨2, ![96, 40]⟩
abbrev S40 : Shape := ⟨1, ![40]⟩
abbrev S50000x96 : Shape := ⟨2, ![50000, 96]⟩
abbrev S2000x128 : Shape := ⟨2, ![2000, 128]⟩
abbrev S2000x96 : Shape := ⟨2, ![2000, 96]⟩
abbrev S800000x1 : Shape := ⟨2, ![800000, 1]⟩
abbrev S_ : Shape := ⟨0, ![]⟩
abbrev S800000x96 : Shape := ⟨2, ![800000, 96]⟩
abbrev S1x96 : Shape := ⟨2, ![1, 96]⟩
abbrev S50000x40 : Shape := ⟨2, ![50000, 40]⟩
abbrev S2000x40 : Shape := ⟨2, ![2000, 40]⟩
abbrev S800000x40 : Shape := ⟨2, ![800000, 40]⟩
abbrev S1x40 : Shape := ⟨2, ![1, 40]⟩
abbrev S2000 : Shape := ⟨1, ![2000]⟩
abbrev S2000x1 : Shape := ⟨2, ![2000, 1]⟩

abbrev nBuf : Space → Nat
  | .hbm => 46
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S800000, .f32⟩
  | .hbm, ⟨2, _⟩ => ⟨S128x96, .f32⟩
  | .hbm, ⟨3, _⟩ => ⟨S96, .f32⟩
  | .hbm, ⟨4, _⟩ => ⟨S96x40, .f32⟩
  | .hbm, ⟨5, _⟩ => ⟨S40, .f32⟩
  | .hbm, ⟨6, _⟩ => ⟨S800000, .i32⟩
  | .hbm, ⟨7, _⟩ => ⟨S800000, .i32⟩
  | .hbm, ⟨8, _⟩ => ⟨S50000x96, .f32⟩
  | .hbm, ⟨9, _⟩ => ⟨S800000x1, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x96, .f32⟩
  | .hbm, ⟨19, _⟩ => ⟨S800000x96, .f32⟩
  | .hbm, ⟨20, _⟩ => ⟨S800000x96, .f32⟩
  | .hbm, ⟨21, _⟩ => ⟨S_, .f32⟩
  | .hbm, ⟨22, _⟩ => ⟨S50000x96, .f32⟩
  | .hbm, ⟨23, _⟩ => ⟨S800000x1, .i32⟩
  | .hbm, ⟨24, _⟩ => ⟨S50000x96, .f32⟩
  | .hbm, ⟨25, _⟩ => ⟨S1x96, .f32⟩
  | .hbm, ⟨26, _⟩ => ⟨S50000x96, .f32⟩
  | .hbm, ⟨27, _⟩ => ⟨S50000x40, .f32⟩
  | .hbm, ⟨28, _⟩ => ⟨S800000x1, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x40, .f32⟩
  | .hbm, ⟨38, _⟩ => ⟨S800000x40, .f32⟩
  | .hbm, ⟨39, _⟩ => ⟨S800000x40, .f32⟩
  | .hbm, ⟨40, _⟩ => ⟨S_, .f32⟩
  | .hbm, ⟨41, _⟩ => ⟨S50000x40, .f32⟩
  | .hbm, ⟨42, _⟩ => ⟨S800000x1, .i32⟩
  | .hbm, ⟨43, _⟩ => ⟨S50000x40, .f32⟩
  | .hbm, ⟨44, _⟩ => ⟨S1x40, .f32⟩
  | .hbm, ⟨45, _⟩ => ⟨S50000x40, .f32⟩
  | .local _ .vmem, ⟨0, _⟩ => ⟨S2000x128, .f32⟩
  | .local _ .vmem, ⟨1, _⟩ => ⟨S2000x128, .f32⟩
  | .local _ .vmem, ⟨2, _⟩ => ⟨S128x96, .f32⟩
  | .local _ .vmem, ⟨3, _⟩ => ⟨S2000x96, .f32⟩
  | .local _ .vmem, ⟨4, _⟩ => ⟨S2000x96, .f32⟩
  | .local _ .vmem, ⟨5, _⟩ => ⟨S2000x96, .f32⟩
  | .local _ .vmem, ⟨6, _⟩ => ⟨S2000x96, .f32⟩
  | .local _ .vmem, ⟨7, _⟩ => ⟨S1x96, .f32⟩
  | .local _ .vmem, ⟨8, _⟩ => ⟨S2000x96, .f32⟩
  | .local _ .vmem, ⟨9, _⟩ => ⟨S2000x96, .f32⟩
  | .local _ .vmem, ⟨10, _⟩ => ⟨S2000x96, .f32⟩
  | .local _ .vmem, ⟨11, _⟩ => ⟨S2000x96, .f32⟩
  | .local _ .vmem, ⟨12, _⟩ => ⟨S96x40, .f32⟩
  | .local _ .vmem, ⟨13, _⟩ => ⟨S2000x40, .f32⟩
  | .local _ .vmem, ⟨14, _⟩ => ⟨S2000x40, .f32⟩
  | .local _ .vmem, ⟨15, _⟩ => ⟨S2000x40, .f32⟩
  | .local _ .vmem, ⟨16, _⟩ => ⟨S2000x40, .f32⟩
  | .local _ .vmem, ⟨17, _⟩ => ⟨S1x40, .f32⟩
  | .local _ .vmem, ⟨18, _⟩ => ⟨S2000x40, .f32⟩
  | .local _ .vmem, ⟨19, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_1 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x96 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S96x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x96_S128x96_0_0 : ∀ a, (![0, 0] : Fin 2 → Nat) a + S128x96.size a ≤ S128x96.size a
  h_S128x96 : 0 < S128x96.numel
  inb_S2000x96_S2000x96_0_0 : ∀ a, (![0, 0] : Fin 2 → Nat) a + S2000x96.size a ≤ S2000x96.size a
  h_S2000x96 : 0 < S2000x96.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  shapeCasts_S96_S1x96 : S96.ShapeCasts S1x96
  shapeCasts_S2000x96_S2000x96 : S2000x96.ShapeCasts S2000x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S2000x96 : S1x96.Broadcasts S2000x96
  inb_S96x40_S96x40_0_0 : ∀ a, (![0, 0] : Fin 2 → Nat) a + S96x40.size a ≤ S96x40.size a
  h_S96x40 : 0 < S96x40.numel
  inb_S2000x40_S2000x40_0_0 : ∀ a, (![0, 0] : Fin 2 → Nat) a + S2000x40.size a ≤ S2000x40.size a
  h_S2000x40 : 0 < S2000x40.numel
  bcast_S800000x1_S800000x40_0_1 : S800000x1.BroadcastsInDim S800000x40 (![0, 1] : Fin 2 → Fin S800000x40.rank)
  bcast_S_S50000x40 : S_.BroadcastsInDim S50000x40 (![] : Fin 0 → Fin S50000x40.rank)
  shapeCasts_S40_S1x40 : S40.ShapeCasts S1x40
  shapeCasts_S2000x40_S2000x40 : S2000x40.ShapeCasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  dot_S2000x128_S128x96_S2000x96_1_0_0_1_n_n_wf : DotDims.WF S2000x128 S128x96 S2000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S2000x96_S96x40_S2000x40_1_0_0_1_n_n_wf : DotDims.WF S2000x96 S96x40 S2000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x96.size a ≤ S128x96.size a
  hwx0_1 : ∀ i : grid0.Coords, EltTy.bits .f32 = 32 ∨ (Rect.block (s := S128x96) S128x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x96.size a ≤ S50000x96.size a
  hwx0_2 : ∀ i : grid0.Coords, EltTy.bits .f32 = 32 ∨ (Rect.block (s := S50000x96) S2000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x96.size a ≤ S50000x96.size a
  hwx1_0 : ∀ i : grid1.Coords, EltTy.bits .f32 = 32 ∨ (Rect.block (s := S50000x96) S2000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x96.size a ≤ S1x96.size a
  hwx1_1 : ∀ i : grid1.Coords, EltTy.bits .f32 = 32 ∨ (Rect.block (s := S1x96) S1x96.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x96.size a ≤ S50000x96.size a
  hwx1_2 : ∀ i : grid1.Coords, EltTy.bits .f32 = 32 ∨ (Rect.block (s := S50000x96) S2000x96.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x96.size a ≤ S50000x96.size a
  hwx2_0 : ∀ i : grid2.Coords, EltTy.bits .f32 = 32 ∨ (Rect.block (s := S50000x96) S2000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S96x40.size a ≤ S96x40.size a
  hwx2_1 : ∀ i : grid2.Coords, EltTy.bits .f32 = 32 ∨ (Rect.block (s := S96x40) S96x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x40.size a ≤ S50000x40.size a
  hwx2_2 : ∀ i : grid2.Coords, EltTy.bits .f32 = 32 ∨ (Rect.block (s := S50000x40) S2000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x40.size a ≤ S50000x40.size a
  hwx3_0 : ∀ i : grid3.Coords, EltTy.bits .f32 = 32 ∨ (Rect.block (s := S50000x40) S2000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x40.size a ≤ S50000x40.size a
  hwx3_2 : ∀ i : grid3.Coords, EltTy.bits .f32 = 32 ∨ (Rect.block (s := S50000x40) S2000x40.size (cc3_transform_2 i) (hinb3_2 i)).WholeWords (EltTy.packing .f32)

variable [Facts₀]

def dot_S2000x128_S128x96_S2000x96_1_0_0_1_n_n : DotDims S2000x128 S128x96 S2000x96 where
  lhsContracting := [1]
  rhsContracting := [0]
  lhsNonContracting := [0]
  rhsNonContracting := [1]
  lhsBatch := []
  rhsBatch := []
  wf := dot_S2000x128_S128x96_S2000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S2000x96_S96x40_S2000x40_1_0_0_1_n_n : DotDims S2000x96 S96x40 S2000x40 where
  lhsContracting := [1]
  rhsContracting := [0]
  lhsNonContracting := [0]
  rhsNonContracting := [1]
  lhsBatch := []
  rhsBatch := []
  wf := dot_S2000x96_S96x40_S2000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S2000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S2000x96.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v15) S2000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S96x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S2000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v29) S2000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v31) S2000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S800000 : Shape := ⟨1, ![800000]⟩
abbrev S128x96 : Shape := ⟨2, ![128, 96]⟩
abbrev S96 : Shape := ⟨1, ![96]⟩
abbrev S96x40 : Shape := ⟨2, ![96, 40]⟩
abbrev S40 : Shape := ⟨1, ![40]⟩
abbrev S50000x96 : Shape := ⟨2, ![50000, 96]⟩
abbrev S800000x1 : Shape := ⟨2, ![800000, 1]⟩
abbrev S_ : Shape := ⟨0, ![]⟩
abbrev S800000x96 : Shape := ⟨2, ![800000, 96]⟩
abbrev S1x96 : Shape := ⟨2, ![1, 96]⟩
abbrev S50000x40 : Shape := ⟨2, ![50000, 40]⟩
abbrev S800000x40 : Shape := ⟨2, ![800000, 40]⟩
abbrev S1x40 : Shape := ⟨2, ![1, 40]⟩
abbrev S50000 : Shape := ⟨1, ![50000]⟩
abbrev S50000x1 : Shape := ⟨2, ![50000, 1]⟩

abbrev nBuf : Space → Nat
  | .hbm => 66
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .f32⟩
  | .hbm, ⟨2, _⟩ => ⟨S128x96, .f32⟩
  | .hbm, ⟨3, _⟩ => ⟨S96, .f32⟩
  | .hbm, ⟨4, _⟩ => ⟨S96x40, .f32⟩
  | .hbm, ⟨5, _⟩ => ⟨S40, .f32⟩
  | .hbm, ⟨6, _⟩ => ⟨S800000, .i32⟩
  | .hbm, ⟨7, _⟩ => ⟨S800000, .i32⟩
  | .hbm, ⟨8, _⟩ => ⟨S50000x96, .f32⟩
  | .hbm, ⟨9, _⟩ => ⟨S800000x1, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x96, .f32⟩
  | .hbm, ⟨19, _⟩ => ⟨S800000x96, .f32⟩
  | .hbm, ⟨20, _⟩ => ⟨S800000x96, .f32⟩
  | .hbm, ⟨21, _⟩ => ⟨S_, .f32⟩
  | .hbm, ⟨22, _⟩ => ⟨S50000x96, .f32⟩
  | .hbm, ⟨23, _⟩ => ⟨S800000x1, .i32⟩
  | .hbm, ⟨24, _⟩ => ⟨S50000x96, .f32⟩
  | .hbm, ⟨25, _⟩ => ⟨S1x96, .f32⟩
  | .hbm, ⟨26, _⟩ => ⟨S50000x96, .f32⟩
  | .hbm, ⟨27, _⟩ => ⟨S50000x96, .f32⟩
  | .hbm, ⟨28, _⟩ => ⟨S_, .f32⟩
  | .hbm, ⟨29, _⟩ => ⟨S50000x96, .f32⟩
  | .hbm, ⟨30, _⟩ => ⟨S50000x96, .f32⟩
  | .hbm, ⟨31, _⟩ => ⟨S50000x40, .f32⟩
  | .hbm, ⟨32, _⟩ => ⟨S800000x1, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x40, .f32⟩
  | .hbm, ⟨42, _⟩ => ⟨S800000x40, .f32⟩
  | .hbm, ⟨43, _⟩ => ⟨S800000x40, .f32⟩
  | .hbm, ⟨44, _⟩ => ⟨S_, .f32⟩
  | .hbm, ⟨45, _⟩ => ⟨S50000x40, .f32⟩
  | .hbm, ⟨46, _⟩ => ⟨S800000x1, .i32⟩
  | .hbm, ⟨47, _⟩ => ⟨S50000x40, .f32⟩
  | .hbm, ⟨48, _⟩ => ⟨S1x40, .f32⟩
  | .hbm, ⟨49, _⟩ => ⟨S50000x40, .f32⟩
  | .hbm, ⟨50, _⟩ => ⟨S50000x40, .f32⟩
  | .hbm, ⟨51, _⟩ => ⟨S_, .f32⟩
  | .hbm, ⟨52, _⟩ => ⟨S50000, .f32⟩
  | .hbm, ⟨53, _⟩ => ⟨S_, .f32⟩
  | .hbm, ⟨54, _⟩ => ⟨S50000, .f32⟩
  | .hbm, ⟨55, _⟩ => ⟨S50000, .f32⟩
  | .hbm, ⟨56, _⟩ => ⟨S50000x1, .f32⟩
  | .hbm, ⟨57, _⟩ => ⟨S50000x40, .f32⟩
  | .hbm, ⟨58, _⟩ => ⟨S50000x40, .f32⟩
  | .hbm, ⟨59, _⟩ => ⟨S50000x40, .f32⟩
  | .hbm, ⟨60, _⟩ => ⟨S_, .f32⟩
  | .hbm, ⟨61, _⟩ => ⟨S50000, .f32⟩
  | .hbm, ⟨62, _⟩ => ⟨S50000x1, .f32⟩
  | .hbm, ⟨63, _⟩ => ⟨S50000x1, .f32⟩
  | .hbm, ⟨64, _⟩ => ⟨S50000x40, .f32⟩
  | .hbm, ⟨65, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call1_cst : Ref sig .tc := ⟨.hbm, 51, rfl⟩
abbrev main_call1_v0 : Ref sig .tc := ⟨.hbm, 52, rfl⟩
abbrev main_call1_cst_0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_cst_1 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_v35 : Ref sig .tc := ⟨.hbm, 65, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S800000x1_S800000x40_0_1 : S800000x1.BroadcastsInDim S800000x40 (![0, 1] : Fin 2 → Fin S800000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  dot_S50000x128_S128x96_S50000x96_1_0_0_1_n_n_wf : DotDims.WF S50000x128 S128x96 S50000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x40_S50000x40_1_0_0_1_n_n_wf : DotDims.WF S50000x96 S96x40 S50000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1

variable [Facts₀]

def dot_S50000x128_S128x96_S50000x96_1_0_0_1_n_n : DotDims S50000x128 S128x96 S50000x96 where
  lhsContracting := [1]
  rhsContracting := [0]
  lhsNonContracting := [0]
  rhsNonContracting := [1]
  lhsBatch := []
  rhsBatch := []
  wf := dot_S50000x128_S128x96_S50000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x40_S50000x40_1_0_0_1_n_n : DotDims S50000x96 S96x40 S50000x40 where
  lhsContracting := [1]
  rhsContracting := [0]
  lhsNonContracting := [0]
  rhsNonContracting := [1]
  lhsBatch := []
  rhsBatch := []
  wf := dot_S50000x96_S96x40_S50000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

class Facts : Prop extends Facts₀ where

variable [Facts]
-- ==== Proof.RefTerms.lean ====
/-
  The reference program's stages as named whole-array terms: the sparse product (a gather of rows by source node,
  scaled by the edge value, summed into rows by destination node), the bias row added to every row, the positive part,
  and the row-wise log-softmax, each written with the very host operations the program applies, and their composition:
  the program's result as one term of its eight arguments.
-/
import proofs.«161073_j47416438948092_1_alg».proof.Proof.Gen.ReferenceIdeal

noncomputable section

namespace Cert.ReferenceIdeal.Terms

open Cert.ReferenceIdeal Cert.ReferenceIdeal.Gen Idealize.ShloMosaic

variable {F : FTy → Type} [FloatOps F]

/-- A source index below zero counts from the end: `src < 0 ? src + 50000 : src`, as a column. -/
def srcCol (src : (⟨S800000, .i32⟩ : BufTy).Contents (Elt F)) : (⟨S800000x1, .i32⟩ : BufTy).Contents (Elt F) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The sparse product at width 96: row `dst e` of the result gathers `val e · s (src e)` over the edges `e`. -/
def spmm96 (s : (⟨S50000x96, .f32⟩ : BufTy).Contents (Elt F)) (ev : (⟨S800000, .f32⟩ : BufTy).Contents (Elt F))
    (src dst : (⟨S800000, .i32⟩ : BufTy).Contents (Elt F)) : (⟨S50000x96, .f32⟩ : BufTy).Contents (Elt F) :=
  Host.scatterAdd scatter_S50000x96_S800000x1_S800000x96_1_0_0_1
    (broadcastInDim S50000x96 ![] bcast_S_S50000x96 (constant S_ .f32 0x00000000#32))
    (broadcastInDim S800000x1 ![0] bcast_S800000_S800000x1_0 dst)
    (mulf (broadcastInDim S800000x96 ![0, 1] bcast_S800000x1_S800000x96_0_1 (broadcastInDim S800000x1 ![0] bcast_S800000_S800000x1_0 ev))
      (Host.gather gather_S50000x96_S800000x1_S800000x96_1_0_n_n_0_1_196 s (srcCol src)))

/-- The sparse product at width 40. -/
def spmm40 (s : (⟨S50000x40, .f32⟩ : BufTy).Contents (Elt F)) (ev : (⟨S800000, .f32⟩ : BufTy).Contents (Elt F))
    (src dst : (⟨S800000, .i32⟩ : BufTy).Contents (Elt F)) : (⟨S50000x40, .f32⟩ : BufTy).Contents (Elt F) :=
  Host.scatterAdd scatter_S50000x40_S800000x1_S800000x40_1_0_0_1
    (broadcastInDim S50000x40 ![] bcast_S_S50000x40 (constant S_ .f32 0x00000000#32))
    (broadcastInDim S800000x1 ![0] bcast_S800000_S800000x1_0 dst)
    (mulf (broadcastInDim S800000x40 ![0, 1] bcast_S800000x1_S800000x40_0_1 (broadcastInDim S800000x1 ![0] bcast_S800000_S800000x1_0 ev))
      (Host.gather gather_S50000x40_S800000x1_S800000x40_1_0_n_n_0_1_140 s (srcCol src)))

/-- The first layer's matrix product. -/
def dot96 (x : (⟨S50000x128, .f32⟩ : BufTy).Contents (Elt F)) (w : (⟨S128x96, .f32⟩ : BufTy).Contents (Elt F)) :
    (⟨S50000x96, .f32⟩ : BufTy).Contents (Elt F) :=
  Host.dotGeneral dot_S50000x128_S128x96_S50000x96_1_0_0_1_n_n none x w

/-- The second layer's matrix product. -/
def dot40 (h : (⟨S50000x96, .f32⟩ : BufTy).Contents (Elt F)) (w : (⟨S96x40, .f32⟩ : BufTy).Contents (Elt F)) :
    (⟨S50000x40, .f32⟩ : BufTy).Contents (Elt F) :=
  Host.dotGeneral dot_S50000x96_S96x40_S50000x40_1_0_0_1_n_n none h w

/-- The first layer's bias added to every row, then the positive part. -/
def biasRelu96 (h : (⟨S50000x96, .f32⟩ : BufTy).Contents (Elt F)) (b : (⟨S96, .f32⟩ : BufTy).Contents (Elt F)) :
    (⟨S50000x96, .f32⟩ : BufTy).Contents (Elt F) :=
  maximumf
    (addf h (broadcastInDim S50000x96 ![0, 1] bcast_S1x96_S50000x96_0_1 (broadcastInDim S1x96 ![1] bcast_S96_S1x96_1 b)))
    (broadcastInDim S50000x96 ![] bcast_S_S50000x96 (constant S_ .f32 0x00000000#32))

/-- The second layer's bias added to every row. -/
def bias40 (o : (⟨S50000x40, .f32⟩ : BufTy).Contents (Elt F)) (b : (⟨S40, .f32⟩ : BufTy).Contents (Elt F)) :
    (⟨S50000x40, .f32⟩ : BufTy).Contents (Elt F) :=
  addf o (broadcastInDim S50000x40 ![0, 1] bcast_S1x40_S50000x40_0_1 (broadcastInDim S1x40 ![1] bcast_S40_S1x40_1 b))

/-- A row's maximum, as the program takes it: the fold of `max` over the row, then once more against minus infinity. -/
def rowMaxHost (z : (⟨S50000x40, .f32⟩ : BufTy).Contents (Elt F)) : (⟨S50000, .f32⟩ : BufTy).Contents (Elt F) :=
  maximumf (broadcastInDim S50000 ![] bcast_S_S50000 (constant S_ .f32 0xFF800000#32))
    (Host.reduce FloatOps.maximumf z (constant S_ .f32 0xFF800000#32) reducesTo_S50000x40_S50000_d1 h_S_)

/-- Each entry minus its row's maximum. -/
def shiftedHost (z : (⟨S50000x40, .f32⟩ : BufTy).Contents (Elt F)) : (⟨S50000x40, .f32⟩ : BufTy).Contents (Elt F) :=
  subf z (broadcastInDim S50000x40 ![0, 1] bcast_S50000x1_S50000x40_0_1 (broadcastInDim S50000x1 ![0] bcast_S50000_S50000x1_0 (rowMaxHost z)))

/-- The row-wise log-softmax: the shifted entries minus the logarithm of the row's sum of their exponentials. -/
def logSoftmaxHost (z : (⟨S50000x40, .f32⟩ : BufTy).Contents (Elt F)) : (⟨S50000x40, .f32⟩ : BufTy).Contents (Elt F) :=
  subf (shiftedHost z)
    (broadcastInDim S50000x40 ![0, 1] bcast_S50000x1_S50000x40_0_1
      (Host.log (broadcastInDim S50000x1 ![0] bcast_S50000_S50000x1_0
        (Host.reduceAdd (Host.exp (shiftedHost z)) (constant S_ .f32 0x00000000#32) reducesTo_S50000x40_S50000_d1 h_S_))))

/-- The program's result as one term of its arguments: two graph-convolution layers and the log-softmax. -/
def result (x : (⟨S50000x128, .f32⟩ : BufTy).Contents (Elt F)) (ev : (⟨S800000, .f32⟩ : BufTy).Contents (Elt F))
    (w1 : (⟨S128x96, .f32⟩ : BufTy).Contents (Elt F)) (b1 : (⟨S96, .f32⟩ : BufTy).Contents (Elt F))
    (w2 : (⟨S96x40, .f32⟩ : BufTy).Contents (Elt F)) (b2 : (⟨S40, .f32⟩ : BufTy).Contents (Elt F))
    (src dst : (⟨S800000, .i32⟩ : BufTy).Contents (Elt F)) : (⟨S50000x40, .f32⟩ : BufTy).Contents (Elt F) :=
  logSoftmaxHost (bias40 (spmm40 (dot40 (biasRelu96 (spmm96 (dot96 x w1) ev src dst) b1) w2) ev src dst) b2)

end Cert.ReferenceIdeal.Terms

end
-- ==== Proof.RefRun.lean ====
/-
  The reference program's run, read stretch by stretch. Its straight line of 58 host operations is cut where the
  mathematics cuts it: the first layer's matrix product and sparse product; the bias, the positive part and the second
  layer's matrix product; the second sparse product; the bias and the row-wise log-softmax. Each stretch, from ANY
  contents of the buffers it reads, leaves its last buffer at the named term of those contents and leaves the argument
  buffers alone; composed, the result buffer ends at `Terms.result` of the eight arguments, and every weakly fair
  execution of the program terminates there with the arguments unchanged.
-/
import proofs.«161073_j47416438948092_1_alg».proof.Proof.RefRunBase
import proofs.«161073_j47416438948092_1_alg».proof.Proof.RefTerms
import Idealize.ShloMosaic.Lib.Pipeline.Frame
import Idealize.ShloMosaic.Lib.StableHlo.Run

set_option maxRecDepth 16384

noncomputable section

namespace Cert.ReferenceIdeal.HandRun

open Cert.ReferenceIdeal Cert.ReferenceIdeal.Gen Cert.ReferenceIdeal.RunBase
open Idealize.ShloMosaic Idealize.ShloMosaic.TcCoe Idealize.SL.Sem Idealize.ShloMosaic.StableHlo

variable {F : FTy → Type} [FloatOps F]

/-! ## The four stretches -/

/-- The first layer's matrix product and sparse product: operations 1 to 17. -/
abbrev ops1 : List (HloOp τ sig (Elt F)) :=
  [ binary main_arg0 main_arg2 main_v0 ((fun l r => Host.dotGeneral dot_S50000x128_S128x96_S50000x96_1_0_0_1_n_n none l r) : (⟨S50000x128, .f32⟩ : BufTy).Contents (Elt F) → (⟨S128x96, .f32⟩ : BufTy).Contents (Elt F) → (⟨S50000x96, .f32⟩ : BufTy).Contents (Elt F)),
    unary main_arg1 main_v1 (broadcastInDim S800000x1 ![0] bcast_S800000_S800000x1_0 : (⟨S800000, .f32⟩ : BufTy).Contents (Elt F) → (⟨S800000x1, .f32⟩ : BufTy).Contents (Elt F)),
    nullary main_c (constantI S_ 32 0#32),
    unary main_c main_v2 (broadcastInDim S800000 ![] bcast_S_S800000 : (⟨S_, .i32⟩ : BufTy).Contents (Elt F) → (⟨S800000, .i32⟩ : BufTy).Contents (Elt F)),
    binary main_arg6 main_v2 main_v3 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v4 (broadcastInDim S800000 ![] bcast_S_S800000 : (⟨S_, .i32⟩ : BufTy).Contents (Elt F) → (⟨S800000, .i32⟩ : BufTy).Contents (Elt F)),
    binary main_arg6 main_v4 main_v5 (addi : (⟨S800000, .i32⟩ : BufTy).Contents (Elt F) → (⟨S800000, .i32⟩ : BufTy).Contents (Elt F) → (⟨S800000, .i32⟩ : BufTy).Contents (Elt F)),
    ternary main_v3 main_v5 main_arg6 main_v6 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v6 main_v7 (broadcastInDim S800000x1 ![0] bcast_S800000_S800000x1_0 : (⟨S800000, .i32⟩ : BufTy).Contents (Elt F) → (⟨S800000x1, .i32⟩ : BufTy).Contents (Elt F)),
    binary main_v0 main_v7 main_v8 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    unary main_v1 main_v9 (broadcastInDim S800000x96 ![0, 1] bcast_S800000x1_S800000x96_0_1 : (⟨S800000x1, .f32⟩ : BufTy).Contents (Elt F) → (⟨S800000x96, .f32⟩ : BufTy).Contents (Elt F)),
    binary main_v9 main_v8 main_v10 (mulf : (⟨S800000x96, .f32⟩ : BufTy).Contents (Elt F) → (⟨S800000x96, .f32⟩ : BufTy).Contents (Elt F) → (⟨S800000x96, .f32⟩ : BufTy).Contents (Elt F)),
    nullary main_cst (constant S_ .f32 0x00000000#32),
    unary main_cst main_v11 (broadcastInDim S50000x96 ![] bcast_S_S50000x96 : (⟨S_, .f32⟩ : BufTy).Contents (Elt F) → (⟨S50000x96, .f32⟩ : BufTy).Contents (Elt F)),
    unary main_arg7 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)) ]

/-- The first layer's bias and positive part, and the second layer's matrix product: operations 18 to 24. -/
abbrev ops2 : List (HloOp τ sig (Elt F)) :=
  [ unary main_arg3 main_v14 (broadcastInDim S1x96 ![1] bcast_S96_S1x96_1 : (⟨S96, .f32⟩ : BufTy).Contents (Elt F) → (⟨S1x96, .f32⟩ : BufTy).Contents (Elt F)),
    unary main_v14 main_v15 (broadcastInDim S50000x96 ![0, 1] bcast_S1x96_S50000x96_0_1 : (⟨S1x96, .f32⟩ : BufTy).Contents (Elt F) → (⟨S50000x96, .f32⟩ : BufTy).Contents (Elt F)),
    binary main_v13 main_v15 main_v16 (addf : (⟨S50000x96, .f32⟩ : BufTy).Contents (Elt F) → (⟨S50000x96, .f32⟩ : BufTy).Contents (Elt F) → (⟨S50000x96, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x96, .f32⟩) main_call0_v0) (broadcastInDim S50000x96 ![] bcast_S_S50000x96),
    TRef.binary (TRef.of (T := ⟨S50000x96, .f32⟩) main_v16) (TRef.of (T := ⟨S50000x96, .f32⟩) main_call0_v0) (TRef.of (T := ⟨S50000x96, .f32⟩) main_v17) maximumf,
    binary main_v17 main_arg4 main_v18 ((fun l r => Host.dotGeneral dot_S50000x96_S96x40_S50000x40_1_0_0_1_n_n none l r) : (⟨S50000x96, .f32⟩ : BufTy).Contents (Elt F) → (⟨S96x40, .f32⟩ : BufTy).Contents (Elt F) → (⟨S50000x40, .f32⟩ : BufTy).Contents (Elt F)) ]

/-- The second layer's sparse product: operations 25 to 40. -/
abbrev ops3 : List (HloOp τ sig (Elt F)) :=
  [ unary main_arg1 main_v19 (broadcastInDim S800000x1 ![0] bcast_S800000_S800000x1_0 : (⟨S800000, .f32⟩ : BufTy).Contents (Elt F) → (⟨S800000x1, .f32⟩ : BufTy).Contents (Elt F)),
    nullary main_c_1 (constantI S_ 32 0#32),
    unary main_c_1 main_v20 (broadcastInDim S800000 ![] bcast_S_S800000 : (⟨S_, .i32⟩ : BufTy).Contents (Elt F) → (⟨S800000, .i32⟩ : BufTy).Contents (Elt F)),
    binary main_arg6 main_v20 main_v21 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v22 (broadcastInDim S800000 ![] bcast_S_S800000 : (⟨S_, .i32⟩ : BufTy).Contents (Elt F) → (⟨S800000, .i32⟩ : BufTy).Contents (Elt F)),
    binary main_arg6 main_v22 main_v23 (addi : (⟨S800000, .i32⟩ : BufTy).Contents (Elt F) → (⟨S800000, .i32⟩ : BufTy).Contents (Elt F) → (⟨S800000, .i32⟩ : BufTy).Contents (Elt F)),
    ternary main_v21 main_v23 main_arg6 main_v24 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v24 main_v25 (broadcastInDim S800000x1 ![0] bcast_S800000_S800000x1_0 : (⟨S800000, .i32⟩ : BufTy).Contents (Elt F) → (⟨S800000x1, .i32⟩ : BufTy).Contents (Elt F)),
    binary main_v18 main_v25 main_v26 ((fun x i => Host.gather gather_S50000x40_S800000x1_S800000x40_1_0_n_n_0_1_140 x i) : (⟨S50000x40, .f32⟩ : BufTy).Contents (Elt F) → (⟨S800000x1, .i32⟩ : BufTy).Contents (Elt F) → (⟨S800000x40, .f32⟩ : BufTy).Contents (Elt F)),
    unary main_v19 main_v27 (broadcastInDim S800000x40 ![0, 1] bcast_S800000x1_S800000x40_0_1 : (⟨S800000x1, .f32⟩ : BufTy).Contents (Elt F) → (⟨S800000x40, .f32⟩ : BufTy).Contents (Elt F)),
    binary main_v27 main_v26 main_v28 (mulf : (⟨S800000x40, .f32⟩ : BufTy).Contents (Elt F) → (⟨S800000x40, .f32⟩ : BufTy).Contents (Elt F) → (⟨S800000x40, .f32⟩ : BufTy).Contents (Elt F)),
    nullary main_cst_3 (constant S_ .f32 0x00000000#32),
    unary main_cst_3 main_v29 (broadcastInDim S50000x40 ![] bcast_S_S50000x40 : (⟨S_, .f32⟩ : BufTy).Contents (Elt F) → (⟨S50000x40, .f32⟩ : BufTy).Contents (Elt F)),
    unary main_arg7 main_v30 (broadcastInDim S800000x1 ![0] bcast_S800000_S800000x1_0 : (⟨S800000, .i32⟩ : BufTy).Contents (Elt F) → (⟨S800000x1, .i32⟩ : BufTy).Contents (Elt F)),
    ternary main_v29 main_v30 main_v28 main_v31 ((fun x i u => Host.scatterAdd scatter_S50000x40_S800000x1_S800000x40_1_0_0_1 x i u) : (⟨S50000x40, .f32⟩ : BufTy).Contents (Elt F) → (⟨S800000x1, .i32⟩ : BufTy).Contents (Elt F) → (⟨S800000x40, .f32⟩ : BufTy).Contents (Elt F) → (⟨S50000x40, .f32⟩ : BufTy).Contents (Elt F)) ]

/-- The second layer's bias and the row-wise log-softmax: operations 41 to 58. -/
abbrev ops4 : List (HloOp τ sig (Elt F)) :=
  [ unary main_arg5 main_v32 (broadcastInDim S1x40 ![1] bcast_S40_S1x40_1 : (⟨S40, .f32⟩ : BufTy).Contents (Elt F) → (⟨S1x40, .f32⟩ : BufTy).Contents (Elt F)),
    unary main_v32 main_v33 (broadcastInDim S50000x40 ![0, 1] bcast_S1x40_S50000x40_0_1 : (⟨S1x40, .f32⟩ : BufTy).Contents (Elt F) → (⟨S50000x40, .f32⟩ : BufTy).Contents (Elt F)),
    binary main_v31 main_v33 main_v34 (addf : (⟨S50000x40, .f32⟩ : BufTy).Contents (Elt F) → (⟨S50000x40, .f32⟩ : BufTy).Contents (Elt F) → (⟨S50000x40, .f32⟩ : BufTy).Contents (Elt F)),
    TRef.nullary (TRef.of (T := ⟨S_, .f32⟩) main_call1_cst) (constant S_ .f32 0xFF800000#32),
    TRef.binary (TRef.of (T := ⟨S50000x40, .f32⟩) main_v34) (TRef.of (T := ⟨S_, .f32⟩) main_call1_cst) (TRef.of (T := ⟨S50000, .f32⟩) main_call1_v0) (fun x v => Host.reduce FloatOps.maximumf x v reducesTo_S50000x40_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x40, .f32⟩) main_call1_v4) (broadcastInDim S50000x40 ![0, 1] bcast_S50000x1_S50000x40_0_1),
    TRef.binary (TRef.of (T := ⟨S50000x40, .f32⟩) main_v34) (TRef.of (T := ⟨S50000x40, .f32⟩) main_call1_v4) (TRef.of (T := ⟨S50000x40, .f32⟩) main_call1_v5) subf,
    TRef.unary (TRef.of (T := ⟨S50000x40, .f32⟩) main_call1_v5) (TRef.of (T := ⟨S50000x40, .f32⟩) main_call1_v6) Host.exp,
    TRef.nullary (TRef.of (T := ⟨S_, .f32⟩) main_call1_cst_1) (constant S_ .f32 0x00000000#32),
    TRef.binary (TRef.of (T := ⟨S50000x40, .f32⟩) main_call1_v6) (TRef.of (T := ⟨S_, .f32⟩) main_call1_cst_1) (TRef.of (T := ⟨S50000, .f32⟩) main_call1_v7) (fun x v => Host.reduceAdd x v reducesTo_S50000x40_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x40, .f32⟩) main_call1_v10) (broadcastInDim S50000x40 ![0, 1] bcast_S50000x1_S50000x40_0_1),
    TRef.binary (TRef.of (T := ⟨S50000x40, .f32⟩) main_call1_v5) (TRef.of (T := ⟨S50000x40, .f32⟩) main_call1_v10) (TRef.of (T := ⟨S50000x40, .f32⟩) main_v35) subf ]

/-- The second layer's bias added to every row: operations 41 to 43. -/
abbrev ops4a : List (HloOp τ sig (Elt F)) :=
  [ unary main_arg5 main_v32 (broadcastInDim S1x40 ![1] bcast_S40_S1x40_1 : (⟨S40, .f32⟩ : BufTy).Contents (Elt F) → (⟨S1x40, .f32⟩ : BufTy).Contents (Elt F)),
    unary main_v32 main_v33 (broadcastInDim S50000x40 ![0, 1] bcast_S1x40_S50000x40_0_1 : (⟨S1x40, .f32⟩ : BufTy).Contents (Elt F) → (⟨S50000x40, .f32⟩ : BufTy).Contents (Elt F)),
    binary main_v31 main_v33 main_v34 (addf : (⟨S50000x40, .f32⟩ : BufTy).Contents (Elt F) → (⟨S50000x40, .f32⟩ : BufTy).Contents (Elt F) → (⟨S50000x40, .f32⟩ : BufTy).Contents (Elt F)) ]

/-- Each row's maximum: operations 44 to 48. -/
abbrev ops4b : List (HloOp τ sig (Elt F)) :=
  [ TRef.nullary (TRef.of (T := ⟨S_, .f32⟩) main_call1_cst) (constant S_ .f32 0xFF800000#32),
    TRef.binary (TRef.of (T := ⟨S50000x40, .f32⟩) main_v34) (TRef.of (T := ⟨S_, .f32⟩) main_call1_cst) (TRef.of (T := ⟨S50000, .f32⟩) main_call1_v0) (fun x v => Host.reduce FloatOps.maximumf x v reducesTo_S50000x40_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf ]

/-- Each entry minus its row's maximum: operations 49 to 51. -/
abbrev ops4c : List (HloOp τ sig (Elt F)) :=
  [ TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x40, .f32⟩) main_call1_v4) (broadcastInDim S50000x40 ![0, 1] bcast_S50000x1_S50000x40_0_1),
    TRef.binary (TRef.of (T := ⟨S50000x40, .f32⟩) main_v34) (TRef.of (T := ⟨S50000x40, .f32⟩) main_call1_v4) (TRef.of (T := ⟨S50000x40, .f32⟩) main_call1_v5) subf ]

/-- The logarithm of each row's sum of exponentials, subtracted: operations 52 to 58. -/
abbrev ops4d : List (HloOp τ sig (Elt F)) :=
  [ TRef.unary (TRef.of (T := ⟨S50000x40, .f32⟩) main_call1_v5) (TRef.of (T := ⟨S50000x40, .f32⟩) main_call1_v6) Host.exp,
    TRef.nullary (TRef.of (T := ⟨S_, .f32⟩) main_call1_cst_1) (constant S_ .f32 0x00000000#32),
    TRef.binary (TRef.of (T := ⟨S50000x40, .f32⟩) main_call1_v6) (TRef.of (T := ⟨S_, .f32⟩) main_call1_cst_1) (TRef.of (T := ⟨S50000, .f32⟩) main_call1_v7) (fun x v => Host.reduceAdd x v reducesTo_S50000x40_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x40, .f32⟩) main_call1_v10) (broadcastInDim S50000x40 ![0, 1] bcast_S50000x1_S50000x40_0_1),
    TRef.binary (TRef.of (T := ⟨S50000x40, .f32⟩) main_call1_v5) (TRef.of (T := ⟨S50000x40, .f32⟩) main_call1_v10) (TRef.of (T := ⟨S50000x40, .f32⟩) main_v35) subf ]

set_option maxRecDepth 65536 in
/-- The program's operations are the four stretches in order. -/
theorem ops_split : (ops : List (HloOp τ sig (Elt F))) = ops1 ++ (ops2 ++ (ops3 ++ ops4)) := rfl

/-! ## What each stretch leaves, from any contents -/

section Stretches

variable (W : Valuation τ sig (Elt F))

-- the gathers, scatters, products and reductions are kept folded: no equation here looks inside one
attribute [local irreducible] Host.scatterAdd Host.gather Host.reduce Host.reduceAdd Host.exp Host.log

set_option maxHeartbeats 2000000 in
/-- After the first stretch the first layer's aggregated features: the sparse product of `x · W1`. -/
theorem stage1 : after ops1 W (Proc.devRef .tc main_v13)
    = Terms.spmm96 (Terms.dot96 (W (Proc.devRef .tc main_arg0)) (W (Proc.devRef .tc main_arg2))) (W (Proc.devRef .tc main_arg1)) (W (Proc.devRef .tc main_arg6)) (W (Proc.devRef .tc main_arg7)) := by
  dsimp only [ops1]
  after_results
  all_goals rfl

set_option maxHeartbeats 2000000 in
theorem keep1_arg1 : after ops1 W (Proc.devRef .tc main_arg1) = W (Proc.devRef .tc main_arg1) := by
  dsimp only [ops1]
  after_results
  all_goals rfl
set_option maxHeartbeats 2000000 in
theorem keep1_arg3 : after ops1 W (Proc.devRef .tc main_arg3) = W (Proc.devRef .tc main_arg3) := by
  dsimp only [ops1]
  after_results
  all_goals rfl
set_option maxHeartbeats 2000000 in
theorem keep1_arg4 : after ops1 W (Proc.devRef .tc main_arg4) = W (Proc.devRef .tc main_arg4) := by
  dsimp only [ops1]
  after_results
  all_goals rfl
set_option maxHeartbeats 2000000 in
theorem keep1_arg5 : after ops1 W (Proc.devRef .tc main_arg5) = W (Proc.devRef .tc main_arg5) := by
  dsimp only [ops1]
  after_results
  all_goals rfl
set_option maxHeartbeats 2000000 in
theorem keep1_arg6 : after ops1 W (Proc.devRef .tc main_arg6) = W (Proc.devRef .tc main_arg6) := by
  dsimp only [ops1]
  after_results
  all_goals rfl
set_option maxHeartbeats 2000000 in
theorem keep1_arg7 : after ops1 W (Proc.devRef .tc main_arg7) = W (Proc.devRef .tc main_arg7) := by
  dsimp only [ops1]
  after_results
  all_goals rfl

/-- After the second stretch the second layer's dense features: `relu (h + b1) · W2`. -/
theorem stage2 : after ops2 W (Proc.devRef .tc main_v18)
    = Terms.dot40 (Terms.biasRelu96 (W (Proc.devRef .tc main_v13)) (W (Proc.devRef .tc main_arg3))) (W (Proc.devRef .tc main_arg4)) := by
  dsimp only [ops2]
  after_results
  all_goals rfl

set_option maxHeartbeats 2000000 in
theorem keep2_arg1 : after ops2 W (Proc.devRef .tc main_arg1) = W (Proc.devRef .tc main_arg1) := by
  dsimp only [ops2]
  after_results
  all_goals rfl
set_option maxHeartbeats 2000000 in
theorem keep2_arg5 : after ops2 W (Proc.devRef .tc main_arg5) = W (Proc.devRef .tc main_arg5) := by
  dsimp only [ops2]
  after_results
  all_goals rfl
set_option maxHeartbeats 2000000 in
theorem keep2_arg6 : after ops2 W (Proc.devRef .tc main_arg6) = W (Proc.devRef .tc main_arg6) := by
  dsimp only [ops2]
  after_results
  all_goals rfl
set_option maxHeartbeats 2000000 in
theorem keep2_arg7 : after ops2 W (Proc.devRef .tc main_arg7) = W (Proc.devRef .tc main_arg7) := by
  dsimp only [ops2]
  after_results
  all_goals rfl

set_option maxHeartbeats 2000000 in
/-- After the third stretch the second layer's aggregated features. -/
theorem stage3 : after ops3 W (Proc.devRef .tc main_v31)
    = Terms.spmm40 (W (Proc.devRef .tc main_v18)) (W (Proc.devRef .tc main_arg1)) (W (Proc.devRef .tc main_arg6)) (W (Proc.devRef .tc main_arg7)) := by
  dsimp only [ops3]
  after_results
  all_goals rfl

set_option maxHeartbeats 2000000 in
theorem keep3_arg5 : after ops3 W (Proc.devRef .tc main_arg5) = W (Proc.devRef .tc main_arg5) := by
  dsimp only [ops3]
  after_results
  all_goals rfl

/-- The last stretch in four steps: the bias, the row maxima, the shifted entries, the log-sum-exp subtracted. -/
theorem ops4_split : (ops4 : List (HloOp τ sig (Elt F))) = ops4a ++ (ops4b ++ (ops4c ++ ops4d)) := rfl

theorem stage4a : after ops4a W (Proc.devRef .tc main_v34) = Terms.bias40 (W (Proc.devRef .tc main_v31)) (W (Proc.devRef .tc main_arg5)) := by
  dsimp only [ops4a]
  after_results
  all_goals rfl

/-- Contents moved to a typed buffer's own type and back are the contents. -/
theorem ofBuf_toBuf {T : BufTy} (x : TRef sig T) (v : T.Contents (Elt F)) : x.ofBuf (x.toBuf v) = v := by
  obtain ⟨r, h, h2, h3⟩ := x
  subst h
  rfl

/-- At these two literal buffers the typed reading is the identity. -/
theorem ofBuf_call1_v2 (X : (Proc.devRef .tc main_call1_v2 : DevRef τ sig).ty.Contents (Elt F)) :
    (TRef.of (T := ⟨S50000, .f32⟩) main_call1_v2).ofBuf X = X := rfl

theorem ofBuf_v34 (X : (Proc.devRef .tc main_v34 : DevRef τ sig).ty.Contents (Elt F)) :
    (TRef.of (T := ⟨S50000x40, .f32⟩) main_v34).ofBuf X = X := rfl

/-- The row maxima, read through the typed buffers: every inner move to a buffer's type and back cancels. -/
theorem stage4b_typed : (TRef.of (T := ⟨S50000, .f32⟩) main_call1_v2).ofBuf (after ops4b W (Proc.devRef .tc main_call1_v2))
    = Terms.rowMaxHost ((TRef.of (T := ⟨S50000x40, .f32⟩) main_v34).ofBuf (W (Proc.devRef .tc main_v34))) := by
  dsimp only [ops4b]
  after_results
  simp only [ofBuf_toBuf]
  rfl

theorem stage4b : after ops4b W (Proc.devRef .tc main_call1_v2) = Terms.rowMaxHost (W (Proc.devRef .tc main_v34)) := by
  rw [← ofBuf_call1_v2 (after ops4b W (Proc.devRef .tc main_call1_v2)), stage4b_typed, ofBuf_v34]

theorem keep4b_v34 : after ops4b W (Proc.devRef .tc main_v34) = W (Proc.devRef .tc main_v34) := by
  dsimp only [ops4b]
  after_results
  all_goals rfl

theorem stage4c : after ops4c W (Proc.devRef .tc main_call1_v5)
    = subf (W (Proc.devRef .tc main_v34)) (broadcastInDim S50000x40 ![0, 1] bcast_S50000x1_S50000x40_0_1
        (broadcastInDim S50000x1 ![0] bcast_S50000_S50000x1_0 (W (Proc.devRef .tc main_call1_v2)))) := by
  dsimp only [ops4c]
  after_results
  all_goals rfl

theorem stage4d : after ops4d W (Proc.devRef .tc main_v35)
    = subf (W (Proc.devRef .tc main_call1_v5)) (broadcastInDim S50000x40 ![0, 1] bcast_S50000x1_S50000x40_0_1
        (Host.log (broadcastInDim S50000x1 ![0] bcast_S50000_S50000x1_0
          (Host.reduceAdd (Host.exp (W (Proc.devRef .tc main_call1_v5))) (constant S_ .f32 0x00000000#32) reducesTo_S50000x40_S50000_d1 h_S_)))) := by
  dsimp only [ops4d]
  after_results
  all_goals rfl

/-- After the last stretch the result: the row-wise log-softmax of the biased features. -/
theorem stage4 : after ops4 W (Proc.devRef .tc main_v35)
    = Terms.logSoftmaxHost (Terms.bias40 (W (Proc.devRef .tc main_v31)) (W (Proc.devRef .tc main_arg5))) := by
  rw [ops4_split, after_append, after_append, after_append, stage4d, stage4c, keep4b_v34, stage4b, stage4a]
  rfl

end Stretches

/-! ## The whole line -/

/-- From any contents, the result buffer ends at the program's term of the eight argument buffers. -/
theorem result_eq (W : Valuation τ sig (Elt F)) : after ops W (Proc.devRef .tc main_v35)
    = Terms.result (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  rw [ops_split, after_append, after_append, after_append, stage4, stage3, keep3_arg5, stage2, keep2_arg1, keep2_arg5, keep2_arg6,
    keep2_arg7, stage1, keep1_arg1, keep1_arg3, keep1_arg4, keep1_arg5, keep1_arg6, keep1_arg7]
  rfl

set_option maxRecDepth 8192 in
set_option maxHeartbeats 2000000 in
/-- On every device, from any memory with zero counters: every weakly fair execution of @main terminates with the
    result at `Terms.result` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35)
        = Terms.result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v35).trans (result_eq (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_after m ρ)

end Cert.ReferenceIdeal.HandRun

end
-- ==== Proof.Spec.lean ====
/-
  What each of the four tiled kernels computes, as whole-array functions over the extended reals, index by index:
  a matrix product (each output entry the sum over the inner axis of the products of a row entry and a column entry),
  a row-bias add followed by the positive part, and a row-bias add followed by the row-wise log-softmax
  (each entry minus the row's maximum, minus the logarithm of the row's sum of exponentials of those differences).
  Nothing here mentions a program: these are the functions both programs' stages are compared with.
-/
import Idealize.ShloMosaic.PureOps.Ideal
import Idealize.ShloMosaic.Lib.ValueIdx

noncomputable section

namespace Cert.Gcn

open Idealize.ShloMosaic Idealize.ShloMosaic.ValueIdx

/-- The matrix product `x · w` of an `n × k` and a `k × p` array: entry `(r, q)` is `∑ j, x (r, j) · w (j, q)`. -/
def matProd {n k p : Nat} (x : FVec Ideal ⟨2, ![n, k]⟩ .f32) (w : FVec Ideal ⟨2, ![k, p]⟩ .f32) :
    FVec Ideal ⟨2, ![n, p]⟩ .f32 :=
  fun i => ∑ j : Fin k, x (ix2 (⟨(i 0).val, (i 0).isLt⟩ : Fin n) j) * w (ix2 j (⟨(i 1).val, (i 1).isLt⟩ : Fin p))

/-- A vector of length `d` laid out as the one row of a `1 × d` array. -/
def rowOf {d : Nat} (b : FVec Ideal ⟨1, ![d]⟩ .f32) : FVec Ideal ⟨2, ![1, d]⟩ .f32 :=
  fun i => b (ix1 (⟨(i 1).val, (i 1).isLt⟩ : Fin d))

/-- A row vector `b` (stored as a `1 × d` array) added to every row of `h`, then the positive part: entry `(r, q)` is
    `max (h (r, q) + b (0, q)) z`, `z` the value of the zero word. -/
def biasPos {n d : Nat} (h : FVec Ideal ⟨2, ![n, d]⟩ .f32) (b : FVec Ideal ⟨2, ![1, d]⟩ .f32) :
    FVec Ideal ⟨2, ![n, d]⟩ .f32 :=
  fun i => max (h i + b (ix2 (0 : Fin 1) (⟨(i 1).val, (i 1).isLt⟩ : Fin d))) (Ideal.ofBits .f32 0x00000000#32)

/-- Row `r` of `o` with the row vector `b` added: the logits of that row. -/
def logits {n d : Nat} (o : FVec Ideal ⟨2, ![n, d]⟩ .f32) (b : FVec Ideal ⟨2, ![1, d]⟩ .f32) (r : Fin n) (j : Fin d) : EReal :=
  o (ix2 r j) + b (ix2 (0 : Fin 1) j)

/-- The maximum of a row of logits, folded from the value of the word `0xFF800000` (minus infinity). -/
def rowMax {n d : Nat} (o : FVec Ideal ⟨2, ![n, d]⟩ .f32) (b : FVec Ideal ⟨2, ![1, d]⟩ .f32) (r : Fin n) : EReal :=
  (Finset.univ : Finset (Fin d)).fold max (Ideal.ofBits .f32 0xFF800000#32) (logits o b r)

/-- The row-wise log-softmax of `o + b`: entry `(r, q)` is `(z q - M) - log (∑ j, exp (z j - M))` with `z` the row's
    logits and `M` their maximum. -/
def biasLogSoftmax {n d : Nat} (o : FVec Ideal ⟨2, ![n, d]⟩ .f32) (b : FVec Ideal ⟨2, ![1, d]⟩ .f32) :
    FVec Ideal ⟨2, ![n, d]⟩ .f32 :=
  fun i =>
    (logits o b ⟨(i 0).val, (i 0).isLt⟩ ⟨(i 1).val, (i 1).isLt⟩ - rowMax o b ⟨(i 0).val, (i 0).isLt⟩)
      - Ideal.log (∑ j : Fin d, Ideal.exp (logits o b ⟨(i 0).val, (i 0).isLt⟩ j - rowMax o b ⟨(i 0).val, (i 0).isLt⟩))

end Cert.Gcn

end
-- ==== Proof.Region3.lean ====
/-
  REGION 3: a row of biases added to every row of a 50000 × 40 array, then the row-wise log-softmax.

  What the region computes. Its first operand is a 50000 × 40 array, its second a 1 × 40 row of biases, and
  its result a 50000 × 40 array. The grid has 25 points; point t loads rows 2000 t … 2000 t + 1999 of the first operand
  (a 2000 × 40 block), the whole bias row, and stores a 2000 × 40 block of the result at the same rows. On a block the
  body forms the logits z (p, j) = x (p, j) + b (0, j), the row maximum M p = the fold of max over the 40 logits of row p
  from the value of the word 0xFF800000, the differences s (p, j) = z (p, j) − M p, the row sums L p = ∑ j, exp (s (p, j)),
  and stores s (p, q) − log (L p).

  How the proof goes.
  1. The body on a block, entry by entry, is the row-wise log-softmax of the block itself: every operation of the body
     is read at an index (p, q) — the casts to the same shape are the identity, the bias row is broadcast along the
     rows, a reduction along the columns is a fold or a sum over the 40 coordinates of the row, and a column of row
     values is broadcast along the columns.
  2. The log-softmax of an entry only looks at the entry's own row and at the bias row: two arrays that agree on a row
     give the same value there.
  3. Point t's input block holds rows 2000 t + p of the first operand, its bias block the whole bias row, and its output
     block sits at rows 2000 t + p of the result: so what point t writes back is block t of the log-softmax of the whole
     array.
  4. Every row r lies in the block of point r / 2000, so the blocks cover the result, which therefore is the
     log-softmax of the whole array.
-/
import proofs.«161073_j47416438948092_1_alg».proof.Proof.Gen.KernelIdeal.Frame
import proofs.«161073_j47416438948092_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## A column of row values: a vector cast to a column, and a column broadcast along the columns -/

section Columns
variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## The body on a block, operation by operation -/

section Body
variable (x0 : Vec Ideal S2000x40 .f32) (x1 : Vec Ideal S1x40 .f32)

/-- The block's logits: the loaded rows plus the bias row broadcast along the rows. -/
def zvec : FVec Ideal S2000x40 .f32 :=
  addf (shapeCast S2000x40 x0 shapeCasts_S2000x40_S2000x40)
    (broadcastTo S2000x40 (shapeCast S1x40 x1 shapeCasts_S1x40_S1x40) broadcasts_S1x40_S2000x40)

/-- The rows' maxima. -/
def mvec : FVec Ideal S2000 .f32 :=
  multiReduction (F := Ideal) .maximumf [1] S2000 (zvec x0 x1) 0xFF800000#32 reduces_S2000x40_S2000 (.inl rfl) rfl

/-- The logits minus their row's maximum. -/
def svec : FVec Ideal S2000x40 .f32 :=
  subf (zvec x0 x1) (broadcastTo S2000x40 (shapeCast S2000x1 (mvec x0 x1) shapeCasts_S2000_S2000x1) broadcasts_S2000x1_S2000x40)

/-- The rows' sums of exponentials of those differences. -/
def lvec : FVec Ideal S2000 .f32 :=
  multiReduction (F := Ideal) .add [1] S2000 (Idealize.ShloMosaic.exp (svec x0 x1)) 0x00000000#32 reduces_S2000x40_S2000 (.inl rfl) rfl

/-- The body's stored value is the differences minus the logarithm of the row sums, broadcast along the columns. -/
theorem pay_eq : k3_pay1 (F := Ideal) x0 x1
    = subf (svec x0 x1) (broadcastTo S2000x40 (Idealize.ShloMosaic.log (shapeCast S2000x1 (lvec x0 x1) shapeCasts_S2000_S2000x1)) broadcasts_S2000x1_S2000x40) := rfl

end Body

/-! ## Each operation read at an index `(p, q)` of the block -/

section BodyAt
variable (x0 : Vec Ideal S2000x40 .f32) (x1 : Vec Ideal S1x40 .f32)

/-- A difference of equal terms. -/
theorem sub_congr {a a' b b' : EReal} (ha : a = a') (hb : b = b') : a - b = a' - b' := by rw [ha, hb]

/-- The source index of a reduction along the columns, over row `p` with column `j` put back, is `(p, j)`. -/
theorem lift_row (p : Fin 2000) (j : Fin 40) :
    reduces_S2000x40_S2000.lift (ix1 p) j = (ix2 p j : S2000x40.Idx) := by
  funext a
  match a with
  | ⟨0, _⟩ => exact Fin.ext rfl
  | ⟨1, _⟩ => exact Fin.ext rfl

/-- A logit of the block: the loaded entry plus the bias of its column. -/
theorem zvec_apply (p : Fin 2000) (q : Fin 40) :
    zvec x0 x1 (ix2 p q) = Cert.Gcn.logits (n := 2000) (d := 40) x0 x1 p q := by
  unfold zvec Cert.Gcn.logits
  rw [shapeCast_self, shapeCast_self]
  exact congrArg (x0 (ix2 p q) + ·) (broadcastTo_1b_ab_apply x1 broadcasts_S1x40_S2000x40 p q)

/-- A row's maximum: the fold of `max` over the row's 40 logits. -/
theorem mvec_apply (p : Fin 2000) :
    mvec x0 x1 (ix1 p) = Cert.Gcn.rowMax (n := 2000) (d := 40) x0 x1 p := by
  unfold mvec Cert.Gcn.rowMax
  refine (Ideal.multiReduction_maximumf_single (zvec x0 x1) 0xFF800000#32 reduces_S2000x40_S2000 (.inl rfl) rfl (ix1 p)).trans ?_
  show (Finset.univ : Finset (Fin 40)).fold max (Ideal.ofBits .f32 0xFF800000#32)
      (fun j => zvec x0 x1 (reduces_S2000x40_S2000.lift (ix1 p) j))
    = (Finset.univ : Finset (Fin 40)).fold max (Ideal.ofBits .f32 0xFF800000#32) (Cert.Gcn.logits x0 x1 p)
  refine congrArg (fun f : Fin 40 → EReal => (Finset.univ : Finset (Fin 40)).fold max (Ideal.ofBits .f32 0xFF800000#32) f)
    (funext fun j => ?_)
  exact (congrArg (zvec x0 x1) (lift_row p j)).trans (zvec_apply x0 x1 p j)

/-- A difference: the logit minus its row's maximum. -/
theorem svec_apply (p : Fin 2000) (q : Fin 40) :
    svec x0 x1 (ix2 p q)
      = Cert.Gcn.logits (n := 2000) (d := 40) x0 x1 p q - Cert.Gcn.rowMax (n := 2000) (d := 40) x0 x1 p := by
  show zvec x0 x1 (ix2 p q)
      - broadcastTo S2000x40 (shapeCast S2000x1 (mvec x0 x1) shapeCasts_S2000_S2000x1) broadcasts_S2000x1_S2000x40 (ix2 p q) = _
  exact sub_congr (zvec_apply x0 x1 p q)
    ((broadcastTo_a1_ab_apply _ broadcasts_S2000x1_S2000x40 p q).trans
      ((shapeCast_a_a1_apply (mvec x0 x1) shapeCasts_S2000_S2000x1 p 0).trans (mvec_apply x0 x1 p)))

/-- A row's sum of exponentials of its differences. -/
theorem lvec_apply (p : Fin 2000) :
    lvec x0 x1 (ix1 p)
      = ∑ j : Fin 40, Ideal.exp (Cert.Gcn.logits (n := 2000) (d := 40) x0 x1 p j - Cert.Gcn.rowMax (n := 2000) (d := 40) x0 x1 p) := by
  unfold lvec
  refine (Ideal.multiReduction_add_single (Idealize.ShloMosaic.exp (svec x0 x1)) 0x00000000#32 reduces_S2000x40_S2000 (.inl rfl) rfl (ix1 p)).trans ?_
  show ∑ j : Fin 40, Idealize.ShloMosaic.exp (svec x0 x1) (reduces_S2000x40_S2000.lift (ix1 p) j) = _
  refine Finset.sum_congr rfl fun j _ => ?_
  exact (congrArg (fun i => Ideal.exp (svec x0 x1 i)) (lift_row p j)).trans (congrArg Ideal.exp (svec_apply x0 x1 p j))

/-- THE BODY ON A BLOCK is the row-wise log-softmax of the block's rows plus the bias row. -/
theorem payload_eq : k3_pay1 (F := Ideal) x0 x1 = Cert.Gcn.biasLogSoftmax (n := 2000) (d := 40) x0 x1 := by
  funext i
  obtain ⟨p, q, rfl⟩ : ∃ (p : Fin 2000) (q : Fin 40), i = ix2 p q := ⟨i 0, i 1, eq_ix2 i⟩
  rw [pay_eq]
  show svec x0 x1 (ix2 p q)
      - broadcastTo S2000x40 (Idealize.ShloMosaic.log (shapeCast S2000x1 (lvec x0 x1) shapeCasts_S2000_S2000x1)) broadcasts_S2000x1_S2000x40 (ix2 p q)
    = (Cert.Gcn.logits (n := 2000) (d := 40) x0 x1 p q - Cert.Gcn.rowMax (n := 2000) (d := 40) x0 x1 p)
      - Ideal.log (∑ j : Fin 40, Ideal.exp (Cert.Gcn.logits (n := 2000) (d := 40) x0 x1 p j - Cert.Gcn.rowMax (n := 2000) (d := 40) x0 x1 p))
  refine sub_congr (svec_apply x0 x1 p q) ?_
  refine (broadcastTo_a1_ab_apply _ broadcasts_S2000x1_S2000x40 p q).trans ?_
  show Ideal.log (shapeCast S2000x1 (lvec x0 x1) shapeCasts_S2000_S2000x1 (ix2 p (0 : Fin 1))) = _
  exact congrArg Ideal.log ((shapeCast_a_a1_apply (lvec x0 x1) shapeCasts_S2000_S2000x1 p 0).trans (lvec_apply x0 x1 p))

end BodyAt

/-! ## The log-softmax of an entry only looks at the entry's row and at the bias row -/

/-- Two arrays that agree on a row (row `y 0` of the one, row `y' 0` of the other), under bias rows that agree, have the
    same log-softmax at the two entries of that row in the same column. -/
theorem biasLogSoftmax_of_row {n n' d : Nat} (o : FVec Ideal ⟨2, ![n, d]⟩ .f32) (o' : FVec Ideal ⟨2, ![n', d]⟩ .f32)
    (b b' : FVec Ideal ⟨2, ![1, d]⟩ .f32) (y : (⟨2, ![n, d]⟩ : Shape).Idx) (y' : (⟨2, ![n', d]⟩ : Shape).Idx)
    (hrow : ∀ j : Fin d, o (ix2 (⟨(y 0).val, (y 0).isLt⟩ : Fin n) j) = o' (ix2 (⟨(y' 0).val, (y' 0).isLt⟩ : Fin n') j))
    (hbias : ∀ j : Fin d, b (ix2 (0 : Fin 1) j) = b' (ix2 (0 : Fin 1) j))
    (hcol : (y 1).val = (y' 1).val) :
    Cert.Gcn.biasLogSoftmax o b y = Cert.Gcn.biasLogSoftmax o' b' y' := by
  have hl : Cert.Gcn.logits o b ⟨(y 0).val, (y 0).isLt⟩ = Cert.Gcn.logits o' b' ⟨(y' 0).val, (y' 0).isLt⟩ :=
    funext fun j => by unfold Cert.Gcn.logits; rw [hrow j, hbias j]
  have hM : Cert.Gcn.rowMax o b ⟨(y 0).val, (y 0).isLt⟩ = Cert.Gcn.rowMax o' b' ⟨(y' 0).val, (y' 0).isLt⟩ := by
    unfold Cert.Gcn.rowMax; rw [hl]
  have hq : (⟨(y 1).val, (y 1).isLt⟩ : Fin d) = ⟨(y' 1).val, (y' 1).isLt⟩ := Fin.ext hcol
  unfold Cert.Gcn.biasLogSoftmax
  show (Cert.Gcn.logits o b ⟨(y 0).val, (y 0).isLt⟩ ⟨(y 1).val, (y 1).isLt⟩ - Cert.Gcn.rowMax o b ⟨(y 0).val, (y 0).isLt⟩)
      - Ideal.log (∑ j : Fin d, Ideal.exp (Cert.Gcn.logits o b ⟨(y 0).val, (y 0).isLt⟩ j - Cert.Gcn.rowMax o b ⟨(y 0).val, (y 0).isLt⟩)) = _
  rw [hl, hM, hq]

/-! ## The windows' blocks at a point, and what the point writes back -/

/-- The zero offsets of a whole-buffer access, as the constant function. -/
theorem zero_offsets : (![0, 0] : Fin 2 → Nat) = fun _ => 0 :=
  funext fun a => match a with | ⟨0, _⟩ => rfl | ⟨1, _⟩ => rfl

/-- The windows' index maps, decided over the 25 points: the row blocks of the first operand and of the result are
    block `t` at point `t`, in the one block column; the bias row's block is the whole row at every point. -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Every one of the 25 row blocks is some point's. -/
theorem index_onto : ∀ r : Fin 25, ∃ t : Fin cfg3.N, win3_2.index t (0 : Fin 2) = r.val ∧ win3_2.index t (1 : Fin 2) = 0 :=
  (by decide +kernel : ∀ r : Fin 25, ∃ t : Fin grid3.N, win3_2.index t (0 : Fin 2) = r.val ∧ win3_2.index t (1 : Fin 2) = 0)

/-- The whole result: the row-wise log-softmax of the first operand's rows plus the bias row. -/
abbrev G (c : Dev nD) : FVec Ideal ⟨2, ![50000, 40]⟩ .f32 :=
  Cert.Gcn.biasLogSoftmax (n := 50000) (d := 40) (V c main_v29) (V c main_v30)

/-- WHAT POINT `t` WRITES BACK is block `t` of the log-softmax of the whole array. -/
theorem flushed_eq (c : Dev nD) (t : Fin cfg3.N) :
    (dat3 (F := Ideal) V c).flushed 2 t = ((cfg3.win 2).blk t).view.read (Elt Ideal) (G V c) := by
  show (cfg3.win 2).cut (grid3.coords t) ((dat3 (F := Ideal) V c).after 2 t) = _
  rw [after3_2]
  unfold out3_2
  rw [View.canon_unit_zero zero_offsets]
  simp only [View.ld_unit_zero (S := S2000x40) zero_offsets, View.ld_unit_zero (S := S1x40) zero_offsets]
  rw [payload_eq]
  obtain ⟨e0, e1, e2, e3, e4, e5⟩ := index_facts t
  funext y
  show Cert.Gcn.biasLogSoftmax (n := 2000) (d := 40) (iblk3 V c 0 t) (iblk3 V c 1 t) y
    = Cert.Gcn.biasLogSoftmax (n := 50000) (d := 40) (V c main_v29) (V c main_v30) (((cfg3.win 2).blk t).view.emb y)
  refine biasLogSoftmax_of_row (iblk3 V c 0 t) (V c main_v29) (iblk3 V c 1 t) (V c main_v30) y
    (((cfg3.win 2).blk t).view.emb y) (fun j => ?_) (fun j => ?_) ?_
  · -- the input block's row p is row 2000 t + p of the first operand
    show V c main_v29 (((cfg3.win 0).blk t).view.emb (ix2 (⟨(y 0).val, (y 0).isLt⟩ : Fin 2000) j)) = _
    refine congrArg (V c main_v29) (funext fun a => Fin.ext ?_)
    match a with
    | ⟨0, _⟩ =>
      show win3_0.index t (0 : Fin 2) * 2000 + 1 * (y 0).val = win3_2.index t (0 : Fin 2) * 2000 + 1 * (y 0).val
      rw [e0, e4]
    | ⟨1, _⟩ =>
      show win3_0.index t (1 : Fin 2) * 40 + 1 * j.val = j.val
      rw [e1]; omega
  · -- the bias block is the whole bias row
    show V c main_v30 (((cfg3.win 1).blk t).view.emb (ix2 (0 : Fin 1) j)) = _
    refine congrArg (V c main_v30) (funext fun a => Fin.ext ?_)
    match a with
    | ⟨0, _⟩ =>
      show win3_1.index t (0 : Fin 2) * 1 + 1 * 0 = 0
      rw [e2]
    | ⟨1, _⟩ =>
      show win3_1.index t (1 : Fin 2) * 40 + 1 * j.val = j.val
      rw [e3]; omega
  · -- the output block's column q is column q of the result
    show (y 1).val = win3_2.index t (1 : Fin 2) * 40 + 1 * (y 1).val
    rw [e5]; omega

/-! ## The blocks cover the result -/

/-- An index of the result is in point `t`'s block iff each coordinate is in the block's range on its axis. -/
theorem mem_blk (t : Fin cfg3.N) (i : S50000x40.Idx) :
    i ∈ ((cfg3.win 2).blk t).view.set ↔ ∀ a : Fin 2, win3_2.index t a * S2000x40.size a ≤ (i a).val ∧ (i a).val < win3_2.index t a * S2000x40.size a + S2000x40.size a := by
  show i ∈ ((View.whole main_v31).slice (win3_2.rect t)).set ↔ _
  rw [View.set_slice_whole, Rect.mem_set_unit]
  exact Iff.rfl

/-- Row `r` lies in the block of the point whose row block is `r / 2000`: every index of the result is covered. -/
theorem cover (i : S50000x40.Idx) :
    ∃ t : Fin cfg3.N, (cfg3.win 2).flush t = true ∧ i ∈ ((cfg3.win 2).blk t).view.set := by
  have hi0 : (i 0).val < 50000 := (i 0).isLt
  have hi1 : (i 1).val < 40 := (i 1).isLt
  obtain ⟨t, q0, q1⟩ := index_onto ⟨(i 0).val / 2000, by omega⟩
  have q0' : win3_2.index t (0 : Fin 2) = (i 0).val / 2000 := q0
  refine ⟨t, flush3_2 t, ?_⟩
  rw [mem_blk]
  intro a
  match a with
  | ⟨0, _⟩ =>
    show win3_2.index t (0 : Fin 2) * 2000 ≤ (i 0).val ∧ (i 0).val < win3_2.index t (0 : Fin 2) * 2000 + 2000
    omega
  | ⟨1, _⟩ =>
    show win3_2.index t (1 : Fin 2) * 40 ≤ (i 1).val ∧ (i 1).val < win3_2.index t (1 : Fin 2) * 40 + 40
    omega

/-! ## The result array -/

/-- THE RESULT ARRAY after the region: the row-wise log-softmax of the first operand's rows plus the bias row. -/
theorem final (c : Dev nD) : (dat3 (F := Ideal) V c).arrAt 2 cfg3.N = Cert.Gcn.biasLogSoftmax (n := 50000) (d := 40) (V c main_v29) (V c main_v30) :=
  (dat3 (F := Ideal) V c).arrAt_eq_of_cover 2 (G V c) (fun t _ => flushed_eq V c t) cover

end Cert.KernelIdeal.Region3

end
-- ==== Proof.KernelTerms.lean ====
/-
  The kernel program's host stretches as named whole-array terms: the sparse product (a gather of rows by source node,
  scaled by the edge value, summed into rows by destination node) at the two layer widths, written with the very host
  operations the program applies between its tiled regions.
-/
import proofs.«161073_j47416438948092_1_alg».proof.Proof.Gen.KernelIdeal

noncomputable section

namespace Cert.KernelIdeal.Terms

open Cert.KernelIdeal Cert.KernelIdeal.Gen Idealize.ShloMosaic

variable {F : FTy → Type} [FloatOps F]

/-- A source index below zero counts from the end: `src < 0 ? src + 50000 : src`, as a column. -/
def srcCol (src : (⟨S800000, .i32⟩ : BufTy).Contents (Elt F)) : (⟨S800000x1, .i32⟩ : BufTy).Contents (Elt F) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The sparse product at width 96: row `dst e` of the result gathers `val e · s (src e)` over the edges `e`. -/
def spmm96 (s : (⟨S50000x96, .f32⟩ : BufTy).Contents (Elt F)) (ev : (⟨S800000, .f32⟩ : BufTy).Contents (Elt F))
    (src dst : (⟨S800000, .i32⟩ : BufTy).Contents (Elt F)) : (⟨S50000x96, .f32⟩ : BufTy).Contents (Elt F) :=
  Host.scatterAdd scatter_S50000x96_S800000x1_S800000x96_1_0_0_1
    (broadcastInDim S50000x96 ![] bcast_S_S50000x96 (constant S_ .f32 0x00000000#32))
    (broadcastInDim S800000x1 ![0] bcast_S800000_S800000x1_0 dst)
    (mulf (broadcastInDim S800000x96 ![0, 1] bcast_S800000x1_S800000x96_0_1 (broadcastInDim S800000x1 ![0] bcast_S800000_S800000x1_0 ev))
      (Host.gather gather_S50000x96_S800000x1_S800000x96_1_0_n_n_0_1_196 s (srcCol src)))

/-- The sparse product at width 40. -/
def spmm40 (s : (⟨S50000x40, .f32⟩ : BufTy).Contents (Elt F)) (ev : (⟨S800000, .f32⟩ : BufTy).Contents (Elt F))
    (src dst : (⟨S800000, .i32⟩ : BufTy).Contents (Elt F)) : (⟨S50000x40, .f32⟩ : BufTy).Contents (Elt F) :=
  Host.scatterAdd scatter_S50000x40_S800000x1_S800000x40_1_0_0_1
    (broadcastInDim S50000x40 ![] bcast_S_S50000x40 (constant S_ .f32 0x00000000#32))
    (broadcastInDim S800000x1 ![0] bcast_S800000_S800000x1_0 dst)
    (mulf (broadcastInDim S800000x40 ![0, 1] bcast_S800000x1_S800000x40_0_1 (broadcastInDim S800000x1 ![0] bcast_S800000_S800000x1_0 ev))
      (Host.gather gather_S50000x40_S800000x1_S800000x40_1_0_n_n_0_1_140 s (srcCol src)))

end Cert.KernelIdeal.Terms

end
-- ==== Proof.Region0.lean ====
/-
  Region 0: the first matrix product, `x · w` for a 50000 × 128 array `x` and a 128 × 96 array `w`.

  The 25 grid points tile the 50000 rows into blocks of 2000 rows. At point `t` the body reads rows
  2000·t … 2000·t + 1999 of `x` (all 128 columns) and the whole of `w`, and stores into its 2000 × 96 block
  the contraction of the two over the inner axis of length 128: entry (p, q) of the block is
  ∑ j, x (2000·t + p, j) · w (j, q). The narrowing of both operands before the product (and a reshape of an operand to
  its own shape, where the body has one) is the identity on the extended reals, and the accumulator is the zero array,
  so nothing but the sum is left.

  The proof: (1) the contraction read at a block index, as a sum over `Fin 128` (the contraction index has one axis);
  (2) each input block read off its array at the coordinates block index × block size + coordinate in the block, the block
  indices of the three windows decided once over the grid; (3) hence what point `t` writes back is block `t` of the
  whole-array matrix product; (4) every row `r` of the result lies in the block of point `r / 2000`, so the blocks cover the
  array and the array ends holding the matrix product.
-/
import proofs.«161073_j47416438948092_1_alg».proof.Proof.Gen.KernelIdeal.Frame
import proofs.«161073_j47416438948092_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The contraction at a block index -/

/-- The left operand's row coordinate is the output's row. -/
theorem lhs_axis0 (i : S2000x96.Idx) (q : dot_S2000x128_S128x96_S2000x96_1_0_0_1_n_n.contr.Idx) :
    (dot_S2000x128_S128x96_S2000x96_1_0_0_1_n_n.lhsIdx i q 0).val = (i 0).val := by
  unfold DotDims.lhsIdx
  rw [dif_neg (show ¬(0 : Fin S2000x128.rank) ∈ dot_S2000x128_S128x96_S2000x96_1_0_0_1_n_n.lhsBatch by decide), dif_pos (show (0 : Fin S2000x128.rank) ∈ dot_S2000x128_S128x96_S2000x96_1_0_0_1_n_n.lhsNonContracting by decide)]
  rfl
/-- The left operand's column coordinate is the contraction index. -/
theorem lhs_axis1 (i : S2000x96.Idx) (q : dot_S2000x128_S128x96_S2000x96_1_0_0_1_n_n.contr.Idx) :
    (dot_S2000x128_S128x96_S2000x96_1_0_0_1_n_n.lhsIdx i q 1).val = (q ⟨0, by decide⟩).val :=
  dot_S2000x128_S128x96_S2000x96_1_0_0_1_n_n.lhsIdx_val_of_single rfl i q
/-- The right operand's row coordinate is the contraction index. -/
theorem rhs_axis0 (i : S2000x96.Idx) (q : dot_S2000x128_S128x96_S2000x96_1_0_0_1_n_n.contr.Idx) :
    (dot_S2000x128_S128x96_S2000x96_1_0_0_1_n_n.rhsIdx i q 0).val = (q ⟨0, by decide⟩).val :=
  dot_S2000x128_S128x96_S2000x96_1_0_0_1_n_n.rhsIdx_val_of_single rfl i q
/-- The right operand's column coordinate is the output's column. -/
theorem rhs_axis1 (i : S2000x96.Idx) (q : dot_S2000x128_S128x96_S2000x96_1_0_0_1_n_n.contr.Idx) :
    (dot_S2000x128_S128x96_S2000x96_1_0_0_1_n_n.rhsIdx i q 1).val = (i 1).val := by
  unfold DotDims.rhsIdx
  rw [dif_neg (show ¬(1 : Fin S128x96.rank) ∈ dot_S2000x128_S128x96_S2000x96_1_0_0_1_n_n.rhsBatch by decide), dif_pos (show (1 : Fin S128x96.rank) ∈ dot_S2000x128_S128x96_S2000x96_1_0_0_1_n_n.rhsNonContracting by decide)]
  rfl

/-- The body's payload at a block index `y`: the sum over the inner axis of the products of row `y 0` of the first
    block and column `y 1` of the second. -/
theorem pay_apply (x0 : Vec Ideal S2000x128 .f32) (x1 : Vec Ideal S128x96 .f32) (y : S2000x96.Idx) :
    k0_pay1 (F := Ideal) x0 x1 y
      = ∑ j : Fin 128, x0 (ix2 (⟨(y 0).val, (y 0).isLt⟩ : Fin 2000) j) * x1 (ix2 j (⟨(y 1).val, (y 1).isLt⟩ : Fin 96)) := by
  show FloatOps.matmul dot_S2000x128_S128x96_S2000x96_1_0_0_1_n_n none _ _ (constant (F := Ideal) S2000x96 .f32 0x00000000#32) y = _
  rw [Ideal.matmul_constant_zero_apply, ← Equiv.sum_comp (contrEquiv1 dot_S2000x128_S128x96_S2000x96_1_0_0_1_n_n 128 rfl rfl).symm]
  refine Finset.sum_congr rfl fun k _ => ?_
  have hk := contrEquiv1_symm_val dot_S2000x128_S128x96_S2000x96_1_0_0_1_n_n 128 rfl rfl k
  have el : dot_S2000x128_S128x96_S2000x96_1_0_0_1_n_n.lhsIdx y ((contrEquiv1 dot_S2000x128_S128x96_S2000x96_1_0_0_1_n_n 128 rfl rfl).symm k)
      = ix2 (⟨(y 0).val, (y 0).isLt⟩ : Fin 2000) k := funext fun a => Fin.ext (by
    match a with
    | ⟨0, _⟩ => exact lhs_axis0 _ _
    | ⟨1, _⟩ => exact (lhs_axis1 _ _).trans hk)
  have er : dot_S2000x128_S128x96_S2000x96_1_0_0_1_n_n.rhsIdx y ((contrEquiv1 dot_S2000x128_S128x96_S2000x96_1_0_0_1_n_n 128 rfl rfl).symm k)
      = ix2 k (⟨(y 1).val, (y 1).isLt⟩ : Fin 96) := funext fun a => Fin.ext (by
    match a with
    | ⟨0, _⟩ => exact (rhs_axis0 _ _).trans hk
    | ⟨1, _⟩ => exact rhs_axis1 _ _)
  rw [el, er, truncf_apply, truncf_apply]

/-- The payload of two blocks read off arrays `A0` (its rows from `b * 2000` on) and `A1` (the whole of it) is, at a
    block index `y`, the matrix product of the two arrays at the array index `i` that `y` sits at. -/
theorem pay_eq_matProd (A0 : FVec Ideal S50000x128 .f32) (A1 : FVec Ideal S128x96 .f32)
    (x0 : Vec Ideal S2000x128 .f32) (x1 : Vec Ideal S128x96 .f32) (b : Nat)
    (h0 : ∀ (x : S2000x128.Idx) (k : S50000x128.Idx), (k 0).val = b * 2000 + (x 0).val → (k 1).val = (x 1).val → x0 x = A0 k)
    (h1 : ∀ (x : S128x96.Idx) (k : S128x96.Idx), (k 0).val = (x 0).val → (k 1).val = (x 1).val → x1 x = A1 k)
    (y : S2000x96.Idx) (i : S50000x96.Idx) (hi0 : (i 0).val = b * 2000 + (y 0).val) (hi1 : (i 1).val = (y 1).val) :
    k0_pay1 (F := Ideal) x0 x1 y = Cert.Gcn.matProd (n := 50000) (k := 128) (p := 96) A0 A1 i := by
  rw [pay_apply]
  unfold Cert.Gcn.matProd
  refine Finset.sum_congr rfl fun j _ => ?_
  rw [h0 (ix2 (⟨(y 0).val, (y 0).isLt⟩ : Fin 2000) j) (ix2 (⟨(i 0).val, (i 0).isLt⟩ : Fin 50000) j) hi0 rfl,
    h1 (ix2 j (⟨(y 1).val, (y 1).isLt⟩ : Fin 96)) (ix2 j (⟨(i 1).val, (i 1).isLt⟩ : Fin 96)) rfl hi1]

/-! ## The blocks, read off their arrays -/

/-- The zero offsets of the body's whole-block accesses, as the constant function. -/
theorem zero_off : (![0, 0] : Fin 2 → Nat) = fun _ => 0 := funext fun a => by fin_cases a <;> rfl

/-- The printed index maps, decided over the grid: the first operand's row block moves with the result's; every other
    block index is zero. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every row block of the result is SOME point's. -/
theorem idx_onto : ∀ q : Fin 25, ∃ t : Fin cfg0.N, win0_2.index t = ![q.val, 0] :=
  (by decide +kernel : ∀ q : Fin 25, ∃ t : Fin grid0.N, win0_2.index t = ![q.val, 0])

/-- The first operand's block at point `t`: the rows of the first array from (the result's row block) × 2000 on, all
    columns. -/
theorem blk_rows (c : Dev nD) (t : Fin cfg0.N) (x : S2000x128.Idx) (k : S50000x128.Idx)
    (hk0 : (k 0).val = win0_2.index t (0 : Fin 2) * 2000 + (x 0).val) (hk1 : (k 1).val = (x 1).val) :
    (iblk0 V c 0 t : Vec Ideal S2000x128 .f32) x = (V c main_arg0 : S50000x128.Idx → Elt Ideal .f32) k := by
  obtain ⟨e0, e1, -, -, -⟩ := idx_facts t
  unfold iblk0
  rw [View.read_apply]
  show V c main_arg0 _ = V c main_arg0 _
  congr 1
  funext a
  apply Fin.ext
  match a with
  | ⟨0, _⟩ => show win0_0.index t (0 : Fin 2) * 2000 + 1 * (x 0).val = (k 0).val; rw [e0, hk0]; omega
  | ⟨1, _⟩ => show win0_0.index t (1 : Fin 2) * 128 + 1 * (x 1).val = (k 1).val; rw [e1, hk1]; omega

/-- The second operand's block at any point is the whole second array. -/
theorem blk_whole (c : Dev nD) (t : Fin cfg0.N) (x : S128x96.Idx) (k : S128x96.Idx)
    (hk0 : (k 0).val = (x 0).val) (hk1 : (k 1).val = (x 1).val) :
    (iblk0 V c 1 t : Vec Ideal S128x96 .f32) x = (V c main_arg2 : S128x96.Idx → Elt Ideal .f32) k := by
  obtain ⟨-, -, e2, e3, -⟩ := idx_facts t
  unfold iblk0
  rw [View.read_apply]
  show V c main_arg2 _ = V c main_arg2 _
  congr 1
  funext a
  apply Fin.ext
  match a with
  | ⟨0, _⟩ => show win0_1.index t (0 : Fin 2) * 128 + 1 * (x 0).val = (k 0).val; rw [e2, hk0]; omega
  | ⟨1, _⟩ => show win0_1.index t (1 : Fin 2) * 96 + 1 * (x 1).val = (k 1).val; rw [e3, hk1]; omega

/-! ## What a point writes back, and the cover -/

/-- WHAT POINT `t` WRITES BACK is block `t` of the matrix product of the two arrays as the region finds them. -/
theorem flushed_eq (c : Dev nD) (t : Fin cfg0.N) :
    (dat0 (F := Ideal) V c).flushed 2 t
      = ((cfg0.win 2).blk t).view.read (Elt Ideal)
          (Cert.Gcn.matProd (n := 50000) (k := 128) (p := 96) (V c main_arg0) (V c main_arg2)) := by
  show (cfg0.win 2).cut (grid0.coords t) ((dat0 (F := Ideal) V c).after 2 t) = _
  rw [after0_2]
  unfold out0_2
  rw [View.canon_unit_zero zero_off]
  simp only [View.ld_unit_zero (S := S2000x128) zero_off, View.ld_unit_zero (S := S128x96) zero_off]
  obtain ⟨-, -, -, -, e4⟩ := idx_facts t
  funext y
  show k0_pay1 (F := Ideal) (iblk0 V c 0 t) (iblk0 V c 1 t) y
    = Cert.Gcn.matProd (n := 50000) (k := 128) (p := 96) (V c main_arg0) (V c main_arg2) (((cfg0.win 2).blk t).view.emb y)
  refine pay_eq_matProd (V c main_arg0) (V c main_arg2) (iblk0 V c 0 t) (iblk0 V c 1 t) (win0_2.index t (0 : Fin 2))
    (blk_rows V c t) (blk_whole V c t) y _ ?_ ?_
  · show win0_2.index t (0 : Fin 2) * 2000 + 1 * (y 0).val = win0_2.index t (0 : Fin 2) * 2000 + (y 0).val
    omega
  · show win0_2.index t (1 : Fin 2) * 96 + 1 * (y 1).val = (y 1).val
    rw [e4]; omega

/-- An index of the result array is in point `t`'s block iff each coordinate is in the block's range on its axis. -/
theorem mem_blk (t : Fin cfg0.N) (i : S50000x96.Idx) :
    i ∈ ((cfg0.win 2).blk t).view.set ↔ ∀ a : Fin 2, win0_2.index t a * S2000x96.size a ≤ (i a).val ∧ (i a).val < win0_2.index t a * S2000x96.size a + S2000x96.size a := by
  show i ∈ ((View.whole main_v0).slice (win0_2.rect t)).set ↔ _
  rw [View.set_slice_whole, Rect.mem_set_unit]
  exact Iff.rfl

/-- Every index of the result array is in the block of the point whose row block is the index's row divided by 2000. -/
theorem cover (i : S50000x96.Idx) :
    ∃ t : Fin cfg0.N, (cfg0.win 2).flush t = true ∧ i ∈ ((cfg0.win 2).blk t).view.set := by
  have hi0 : (i 0).val < 50000 := (i 0).isLt
  have hi1 : (i 1).val < 96 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 96 ≤ (i 1).val ∧ (i 1).val < win0_2.index t (1 : Fin 2) * 96 + 96; omega

/-- THE ARRAY after the region: the matrix product of the two arrays as the region finds them. -/
theorem final (c : Dev nD) : (dat0 (F := Ideal) V c).arrAt 2 cfg0.N = Cert.Gcn.matProd (n := 50000) (k := 128) (p := 96) (V c main_arg0) (V c main_arg2) :=
  (dat0 (F := Ideal) V c).arrAt_eq_of_cover 2 _ (fun t _ => flushed_eq V c t) cover

end Cert.KernelIdeal.Region0

end
-- ==== Proof.Region1.lean ====
/-
  The bias and positive-part region of the two-layer graph convolution.

  The region reads a 50000 × 96 array `h` in blocks of 2000 rows and a 1 × 96 row vector `b` whole at every
  point of its grid of 25 points, and writes a 50000 × 96 array in blocks of 2000 rows. At a point the body adds the
  row vector to every row of the block it was handed and takes the maximum with the value of the zero word: at the
  block index `(p, q)` it leaves `max (x (p, q) + b (0, q)) z`.

  The proof goes block by block. The payload is read at an index (`payload_apply`); with the block of `h` read
  at the output block's own rows and the row vector read whole, that is the whole-array function
  `Cert.Gcn.biasPos h b` at the row the block index stands for (`block_point`). The three index maps are
  compared once over the grid (`index_facts`: the input and the output block of point `t` are both block `t`
  along the rows, everything else sits at block 0), so point `t` writes block `t` of `biasPos h b`
  (`flushed_eq`). Blocks of 2000 rows tile the 50000 rows: row `r` lies in the block of point `r / 2000`
  (`mem_block`, `cover`). Hence the output array ends holding `biasPos h b` (`final`).
-/
import proofs.«161073_j47416438948092_1_alg».proof.Proof.Gen.KernelIdeal.Frame
import proofs.«161073_j47416438948092_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of a whole-block access are the constant zero function. -/
theorem zero_offsets : (![0, 0] : Fin 2 → Nat) = fun _ => 0 := funext fun a => by fin_cases a <;> rfl

/-- THE PAYLOAD AT AN INDEX: at `(p, q)` the body leaves the block's entry plus the row vector's entry of column
    `q`, or the value of the zero word if that is larger. The two shape casts are to the operands' own shapes, the
    broadcast repeats the one row, the sum and the maximum are taken entry by entry. -/
theorem payload_apply (x0 : FVec Ideal S2000x96 .f32) (x1 : FVec Ideal S1x96 .f32) (p : Fin 2000) (q : Fin 96) :
    k1_pay1 (F := Ideal) x0 x1 (ix2 p q)
      = max (x0 (ix2 p q) + x1 (ix2 (0 : Fin 1) q)) (Ideal.ofBits .f32 0x00000000#32) := by
  unfold k1_pay1
  show max (shapeCast S2000x96 x0 shapeCasts_S2000x96_S2000x96 (ix2 p q)
      + broadcastTo S2000x96 (shapeCast S1x96 x1 shapeCasts_S1x96_S1x96) broadcasts_S1x96_S2000x96 (ix2 p q)) _ = _
  rw [shapeCast_self, shapeCast_self, broadcastTo_1b_ab_apply]
  rfl

/-- ONE ENTRY OF A BLOCK: if the block entry `x0 y` is the array's entry `h i`, the row vector's block is the row
    vector itself, and `i` has `y`'s column, then the payload at `y` is `biasPos h b` at `i`. -/
theorem block_point (x0 : FVec Ideal S2000x96 .f32) (x1 : FVec Ideal S1x96 .f32)
    (h : FVec Ideal S50000x96 .f32) (b : FVec Ideal S1x96 .f32) (y : S2000x96.Idx) (i : S50000x96.Idx)
    (h0 : x0 y = h i) (h1 : ∀ q : Fin 96, x1 (ix2 (0 : Fin 1) q) = b (ix2 (0 : Fin 1) q))
    (hcol : (i 1).val = (y 1).val) :
    k1_pay1 (F := Ideal) x0 x1 y = Cert.Gcn.biasPos (n := 50000) (d := 96) h b i := by
  obtain ⟨p, q, rfl⟩ : ∃ (p : Fin 2000) (q : Fin 96), y = ix2 p q := ⟨y 0, y 1, eq_ix2 y⟩
  have hq : (⟨(i 1).val, (i 1).isLt⟩ : Fin 96) = q := Fin.ext hcol
  rw [payload_apply, h0, h1]
  unfold Cert.Gcn.biasPos
  rw [hq]

/-- The printed index maps, compared once over the grid: along the rows the input block and the output block of point
    `t` are both block `t`; along the columns, and for the row vector on both axes, the block is block 0. -/
theorem index_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- WHAT POINT `t` WRITES BACK is block `t` of `biasPos h b`, `h` and `b` the two input arrays as the region
    finds them. -/
theorem flushed_eq (c : Dev nD) (t : Fin cfg1.N) :
    (dat1 (F := Ideal) V c).flushed 2 t
      = ((cfg1.win 2).blk t).view.read (Elt Ideal)
          (Cert.Gcn.biasPos (n := 50000) (d := 96) (V c main_v13) (V c main_v14)) := by
  show (cfg1.win 2).cut (grid1.coords t) ((dat1 V c).after 2 t) = _
  rw [after1_2]
  unfold out1_2
  rw [View.canon_unit_zero zero_offsets]
  simp only [View.ld_unit_zero (S := S2000x96) zero_offsets, View.ld_unit_zero (S := S1x96) zero_offsets]
  obtain ⟨e0, e1, e2, e3, e4, e5⟩ := index_facts t
  funext y
  show k1_pay1 (F := Ideal) (iblk1 V c 0 t) (iblk1 V c 1 t) y
      = Cert.Gcn.biasPos (n := 50000) (d := 96) (V c main_v13) (V c main_v14) (((cfg1.win 2).blk t).view.emb y)
  refine block_point _ _ _ _ y _ ?_ ?_ ?_
  · show V c main_v13 (((cfg1.win 0).blk t).view.emb y) = V c main_v13 (((cfg1.win 2).blk t).view.emb y)
    refine congrArg _ (funext fun a => Fin.ext ?_)
    match a with
    | ⟨0, _⟩ => show win1_0.index t (0 : Fin 2) * 2000 + 1 * (y 0).val = win1_2.index t (0 : Fin 2) * 2000 + 1 * (y 0).val; omega
    | ⟨1, _⟩ => show win1_0.index t (1 : Fin 2) * 96 + 1 * (y 1).val = win1_2.index t (1 : Fin 2) * 96 + 1 * (y 1).val; omega
  · intro q
    show V c main_v14 (((cfg1.win 1).blk t).view.emb (ix2 (0 : Fin 1) q)) = V c main_v14 (ix2 (0 : Fin 1) q)
    refine congrArg _ (funext fun a => Fin.ext ?_)
    match a with
    | ⟨0, _⟩ => show win1_1.index t (0 : Fin 2) * 1 + 1 * 0 = 0; omega
    | ⟨1, _⟩ => show win1_1.index t (1 : Fin 2) * 96 + 1 * q.val = q.val; omega
  · show win1_2.index t (1 : Fin 2) * 96 + 1 * (y 1).val = (y 1).val
    omega

/-- An index of the array is in point `t`'s block iff each coordinate is in the block's range on its axis. -/
theorem mem_block (t : Fin cfg1.N) (i : S50000x96.Idx) :
    i ∈ ((cfg1.win 2).blk t).view.set
      ↔ ∀ a : Fin 2, win1_2.index t a * S2000x96.size a ≤ (i a).val
          ∧ (i a).val < win1_2.index t a * S2000x96.size a + S2000x96.size a := by
  show i ∈ ((View.whole main_v15).slice (win1_2.rect t)).set ↔ _
  rw [View.set_slice_whole, Rect.mem_set_unit]
  exact Iff.rfl

/-- THE BLOCKS TILE THE ARRAY: row `r` lies in the block of point `r / 2000`, and every column lies in the one block
    of columns. -/
theorem cover (i : S50000x96.Idx) :
    ∃ t : Fin cfg1.N, (cfg1.win 2).flush t = true ∧ i ∈ ((cfg1.win 2).blk t).view.set := by
  have hi0 : (i 0).val < 50000 := (i 0).isLt
  have hi1 : (i 1).val < 96 := (i 1).isLt
  have hN : cfg1.N = 25 := rfl
  have ht : (i 0).val / 2000 < cfg1.N := by rw [hN]; omega
  obtain ⟨e0, e1, e2, e3, e4, e5⟩ := index_facts ⟨(i 0).val / 2000, ht⟩
  have e4' : win1_2.index ⟨(i 0).val / 2000, ht⟩ (0 : Fin 2) = (i 0).val / 2000 := e4
  refine ⟨⟨(i 0).val / 2000, ht⟩, flush1_2 _, ?_⟩
  rw [mem_block]
  intro a
  match a with
  | ⟨0, _⟩ =>
    show win1_2.index ⟨(i 0).val / 2000, ht⟩ (0 : Fin 2) * 2000 ≤ (i 0).val
      ∧ (i 0).val < win1_2.index ⟨(i 0).val / 2000, ht⟩ (0 : Fin 2) * 2000 + 2000
    omega
  | ⟨1, _⟩ =>
    show win1_2.index ⟨(i 0).val / 2000, ht⟩ (1 : Fin 2) * 96 ≤ (i 1).val
      ∧ (i 1).val < win1_2.index ⟨(i 0).val / 2000, ht⟩ (1 : Fin 2) * 96 + 96
    omega

/-- THE ARRAY AFTER THE REGION: the bias added to every row of `h`, then the positive part. -/
theorem final (c : Dev nD) : (dat1 (F := Ideal) V c).arrAt 2 cfg1.N = Cert.Gcn.biasPos (n := 50000) (d := 96) (V c main_v13) (V c main_v14) :=
  (dat1 (F := Ideal) V c).arrAt_eq_of_cover 2 _ (fun t _ => flushed_eq V c t) cover

end Cert.KernelIdeal.Region1

end
-- ==== Proof.Region2.lean ====
/-
  Region 2: the second matrix product, `x · w` for a 50000 × 96 array `x` and a 96 × 40 array `w`.

  The 25 grid points tile the 50000 rows into blocks of 2000 rows. At point `t` the body reads rows
  2000·t … 2000·t + 1999 of `x` (all 96 columns) and the whole of `w`, and stores into its 2000 × 40 block
  the contraction of the two over the inner axis of length 96: entry (p, q) of the block is
  ∑ j, x (2000·t + p, j) · w (j, q). The narrowing of both operands before the product (and a reshape of an operand to
  its own shape, where the body has one) is the identity on the extended reals, and the accumulator is the zero array,
  so nothing but the sum is left.

  The proof: (1) the contraction read at a block index, as a sum over `Fin 96` (the contraction index has one axis);
  (2) each input block read off its array at the coordinates block index × block size + coordinate in the block, the block
  indices of the three windows decided once over the grid; (3) hence what point `t` writes back is block `t` of the
  whole-array matrix product; (4) every row `r` of the result lies in the block of point `r / 2000`, so the blocks cover the
  array and the array ends holding the matrix product.
-/
import proofs.«161073_j47416438948092_1_alg».proof.Proof.Gen.KernelIdeal.Frame
import proofs.«161073_j47416438948092_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The contraction at a block index -/

/-- The left operand's row coordinate is the output's row. -/
theorem lhs_axis0 (i : S2000x40.Idx) (q : dot_S2000x96_S96x40_S2000x40_1_0_0_1_n_n.contr.Idx) :
    (dot_S2000x96_S96x40_S2000x40_1_0_0_1_n_n.lhsIdx i q 0).val = (i 0).val := by
  unfold DotDims.lhsIdx
  rw [dif_neg (show ¬(0 : Fin S2000x96.rank) ∈ dot_S2000x96_S96x40_S2000x40_1_0_0_1_n_n.lhsBatch by decide), dif_pos (show (0 : Fin S2000x96.rank) ∈ dot_S2000x96_S96x40_S2000x40_1_0_0_1_n_n.lhsNonContracting by decide)]
  rfl
/-- The left operand's column coordinate is the contraction index. -/
theorem lhs_axis1 (i : S2000x40.Idx) (q : dot_S2000x96_S96x40_S2000x40_1_0_0_1_n_n.contr.Idx) :
    (dot_S2000x96_S96x40_S2000x40_1_0_0_1_n_n.lhsIdx i q 1).val = (q ⟨0, by decide⟩).val :=
  dot_S2000x96_S96x40_S2000x40_1_0_0_1_n_n.lhsIdx_val_of_single rfl i q
/-- The right operand's row coordinate is the contraction index. -/
theorem rhs_axis0 (i : S2000x40.Idx) (q : dot_S2000x96_S96x40_S2000x40_1_0_0_1_n_n.contr.Idx) :
    (dot_S2000x96_S96x40_S2000x40_1_0_0_1_n_n.rhsIdx i q 0).val = (q ⟨0, by decide⟩).val :=
  dot_S2000x96_S96x40_S2000x40_1_0_0_1_n_n.rhsIdx_val_of_single rfl i q
/-- The right operand's column coordinate is the output's column. -/
theorem rhs_axis1 (i : S2000x40.Idx) (q : dot_S2000x96_S96x40_S2000x40_1_0_0_1_n_n.contr.Idx) :
    (dot_S2000x96_S96x40_S2000x40_1_0_0_1_n_n.rhsIdx i q 1).val = (i 1).val := by
  unfold DotDims.rhsIdx
  rw [dif_neg (show ¬(1 : Fin S96x40.rank) ∈ dot_S2000x96_S96x40_S2000x40_1_0_0_1_n_n.rhsBatch by decide), dif_pos (show (1 : Fin S96x40.rank) ∈ dot_S2000x96_S96x40_S2000x40_1_0_0_1_n_n.rhsNonContracting by decide)]
  rfl

/-- The body's payload at a block index `y`: the sum over the inner axis of the products of row `y 0` of the first
    block and column `y 1` of the second. -/
theorem pay_apply (x0 : Vec Ideal S2000x96 .f32) (x1 : Vec Ideal S96x40 .f32) (y : S2000x40.Idx) :
    k2_pay1 (F := Ideal) x0 x1 y
      = ∑ j : Fin 96, x0 (ix2 (⟨(y 0).val, (y 0).isLt⟩ : Fin 2000) j) * x1 (ix2 j (⟨(y 1).val, (y 1).isLt⟩ : Fin 40)) := by
  show FloatOps.matmul dot_S2000x96_S96x40_S2000x40_1_0_0_1_n_n none _ _ (constant (F := Ideal) S2000x40 .f32 0x00000000#32) y = _
  rw [Ideal.matmul_constant_zero_apply, ← Equiv.sum_comp (contrEquiv1 dot_S2000x96_S96x40_S2000x40_1_0_0_1_n_n 96 rfl rfl).symm]
  refine Finset.sum_congr rfl fun k _ => ?_
  have hk := contrEquiv1_symm_val dot_S2000x96_S96x40_S2000x40_1_0_0_1_n_n 96 rfl rfl k
  have el : dot_S2000x96_S96x40_S2000x40_1_0_0_1_n_n.lhsIdx y ((contrEquiv1 dot_S2000x96_S96x40_S2000x40_1_0_0_1_n_n 96 rfl rfl).symm k)
      = ix2 (⟨(y 0).val, (y 0).isLt⟩ : Fin 2000) k := funext fun a => Fin.ext (by
    match a with
    | ⟨0, _⟩ => exact lhs_axis0 _ _
    | ⟨1, _⟩ => exact (lhs_axis1 _ _).trans hk)
  have er : dot_S2000x96_S96x40_S2000x40_1_0_0_1_n_n.rhsIdx y ((contrEquiv1 dot_S2000x96_S96x40_S2000x40_1_0_0_1_n_n 96 rfl rfl).symm k)
      = ix2 k (⟨(y 1).val, (y 1).isLt⟩ : Fin 40) := funext fun a => Fin.ext (by
    match a with
    | ⟨0, _⟩ => exact (rhs_axis0 _ _).trans hk
    | ⟨1, _⟩ => exact rhs_axis1 _ _)
  rw [el, er, truncf_apply, truncf_apply, shapeCast_self]

/-- The payload of two blocks read off arrays `A0` (its rows from `b * 2000` on) and `A1` (the whole of it) is, at a
    block index `y`, the matrix product of the two arrays at the array index `i` that `y` sits at. -/
theorem pay_eq_matProd (A0 : FVec Ideal S50000x96 .f32) (A1 : FVec Ideal S96x40 .f32)
    (x0 : Vec Ideal S2000x96 .f32) (x1 : Vec Ideal S96x40 .f32) (b : Nat)
    (h0 : ∀ (x : S2000x96.Idx) (k : S50000x96.Idx), (k 0).val = b * 2000 + (x 0).val → (k 1).val = (x 1).val → x0 x = A0 k)
    (h1 : ∀ (x : S96x40.Idx) (k : S96x40.Idx), (k 0).val = (x 0).val → (k 1).val = (x 1).val → x1 x = A1 k)
    (y : S2000x40.Idx) (i : S50000x40.Idx) (hi0 : (i 0).val = b * 2000 + (y 0).val) (hi1 : (i 1).val = (y 1).val) :
    k2_pay1 (F := Ideal) x0 x1 y = Cert.Gcn.matProd (n := 50000) (k := 96) (p := 40) A0 A1 i := by
  rw [pay_apply]
  unfold Cert.Gcn.matProd
  refine Finset.sum_congr rfl fun j _ => ?_
  rw [h0 (ix2 (⟨(y 0).val, (y 0).isLt⟩ : Fin 2000) j) (ix2 (⟨(i 0).val, (i 0).isLt⟩ : Fin 50000) j) hi0 rfl,
    h1 (ix2 j (⟨(y 1).val, (y 1).isLt⟩ : Fin 40)) (ix2 j (⟨(i 1).val, (i 1).isLt⟩ : Fin 40)) rfl hi1]

/-! ## The blocks, read off their arrays -/

/-- The zero offsets of the body's whole-block accesses, as the constant function. -/
theorem zero_off : (![0, 0] : Fin 2 → Nat) = fun _ => 0 := funext fun a => by fin_cases a <;> rfl

/-- The printed index maps, decided over the grid: the first operand's row block moves with the result's; every other
    block index is zero. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0 :=
  (by decide +kernel : ∀ t : Fin grid2.N, _)

/-- Every row block of the result is SOME point's. -/
theorem idx_onto : ∀ q : Fin 25, ∃ t : Fin cfg2.N, win2_2.index t = ![q.val, 0] :=
  (by decide +kernel : ∀ q : Fin 25, ∃ t : Fin grid2.N, win2_2.index t = ![q.val, 0])

/-- The first operand's block at point `t`: the rows of the first array from (the result's row block) × 2000 on, all
    columns. -/
theorem blk_rows (c : Dev nD) (t : Fin cfg2.N) (x : S2000x96.Idx) (k : S50000x96.Idx)
    (hk0 : (k 0).val = win2_2.index t (0 : Fin 2) * 2000 + (x 0).val) (hk1 : (k 1).val = (x 1).val) :
    (iblk2 V c 0 t : Vec Ideal S2000x96 .f32) x = (V c main_v15 : S50000x96.Idx → Elt Ideal .f32) k := by
  obtain ⟨e0, e1, -, -, -⟩ := idx_facts t
  unfold iblk2
  rw [View.read_apply]
  show V c main_v15 _ = V c main_v15 _
  congr 1
  funext a
  apply Fin.ext
  match a with
  | ⟨0, _⟩ => show win2_0.index t (0 : Fin 2) * 2000 + 1 * (x 0).val = (k 0).val; rw [e0, hk0]; omega
  | ⟨1, _⟩ => show win2_0.index t (1 : Fin 2) * 96 + 1 * (x 1).val = (k 1).val; rw [e1, hk1]; omega

/-- The second operand's block at any point is the whole second array. -/
theorem blk_whole (c : Dev nD) (t : Fin cfg2.N) (x : S96x40.Idx) (k : S96x40.Idx)
    (hk0 : (k 0).val = (x 0).val) (hk1 : (k 1).val = (x 1).val) :
    (iblk2 V c 1 t : Vec Ideal S96x40 .f32) x = (V c main_arg4 : S96x40.Idx → Elt Ideal .f32) k := by
  obtain ⟨-, -, e2, e3, -⟩ := idx_facts t
  unfold iblk2
  rw [View.read_apply]
  show V c main_arg4 _ = V c main_arg4 _
  congr 1
  funext a
  apply Fin.ext
  match a with
  | ⟨0, _⟩ => show win2_1.index t (0 : Fin 2) * 96 + 1 * (x 0).val = (k 0).val; rw [e2, hk0]; omega
  | ⟨1, _⟩ => show win2_1.index t (1 : Fin 2) * 40 + 1 * (x 1).val = (k 1).val; rw [e3, hk1]; omega

/-! ## What a point writes back, and the cover -/

/-- WHAT POINT `t` WRITES BACK is block `t` of the matrix product of the two arrays as the region finds them. -/
theorem flushed_eq (c : Dev nD) (t : Fin cfg2.N) :
    (dat2 (F := Ideal) V c).flushed 2 t
      = ((cfg2.win 2).blk t).view.read (Elt Ideal)
          (Cert.Gcn.matProd (n := 50000) (k := 96) (p := 40) (V c main_v15) (V c main_arg4)) := by
  show (cfg2.win 2).cut (grid2.coords t) ((dat2 (F := Ideal) V c).after 2 t) = _
  rw [after2_2]
  unfold out2_2
  rw [View.canon_unit_zero zero_off]
  simp only [View.ld_unit_zero (S := S2000x96) zero_off, View.ld_unit_zero (S := S96x40) zero_off]
  obtain ⟨-, -, -, -, e4⟩ := idx_facts t
  funext y
  show k2_pay1 (F := Ideal) (iblk2 V c 0 t) (iblk2 V c 1 t) y
    = Cert.Gcn.matProd (n := 50000) (k := 96) (p := 40) (V c main_v15) (V c main_arg4) (((cfg2.win 2).blk t).view.emb y)
  refine pay_eq_matProd (V c main_v15) (V c main_arg4) (iblk2 V c 0 t) (iblk2 V c 1 t) (win2_2.index t (0 : Fin 2))
    (blk_rows V c t) (blk_whole V c t) y _ ?_ ?_
  · show win2_2.index t (0 : Fin 2) * 2000 + 1 * (y 0).val = win2_2.index t (0 : Fin 2) * 2000 + (y 0).val
    omega
  · show win2_2.index t (1 : Fin 2) * 40 + 1 * (y 1).val = (y 1).val
    rw [e4]; omega

/-- An index of the result array is in point `t`'s block iff each coordinate is in the block's range on its axis. -/
theorem mem_blk (t : Fin cfg2.N) (i : S50000x40.Idx) :
    i ∈ ((cfg2.win 2).blk t).view.set ↔ ∀ a : Fin 2, win2_2.index t a * S2000x40.size a ≤ (i a).val ∧ (i a).val < win2_2.index t a * S2000x40.size a + S2000x40.size a := by
  show i ∈ ((View.whole main_v16).slice (win2_2.rect t)).set ↔ _
  rw [View.set_slice_whole, Rect.mem_set_unit]
  exact Iff.rfl

/-- Every index of the result array is in the block of the point whose row block is the index's row divided by 2000. -/
theorem cover (i : S50000x40.Idx) :
    ∃ t : Fin cfg2.N, (cfg2.win 2).flush t = true ∧ i ∈ ((cfg2.win 2).blk t).view.set := by
  have hi0 : (i 0).val < 50000 := (i 0).isLt
  have hi1 : (i 1).val < 40 := (i 1).isLt
  obtain ⟨t, ht⟩ := idx_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 40 ≤ (i 1).val ∧ (i 1).val < win2_2.index t (1 : Fin 2) * 40 + 40; omega

/-- THE ARRAY after the region: the matrix product of the two arrays as the region finds them. -/
theorem final (c : Dev nD) : (dat2 (F := Ideal) V c).arrAt 2 cfg2.N = Cert.Gcn.matProd (n := 50000) (k := 96) (p := 40) (V c main_v15) (V c main_arg4) :=
  (dat2 (F := Ideal) V c).arrAt_eq_of_cover 2 _ (fun t _ => flushed_eq V c t) cover

end Cert.KernelIdeal.Region2

end
-- ==== Proof.KernelChain.lean ====
/-
  What the last tiled region is entered with, as terms of the launch memory.

  The program alternates tiled regions with stretches of whole-array operations. Write `x`, `w₁`, `b₁`, `w₂`, `b₂` for the
  feature, weight and bias arguments, `(ev, src, dst)` for the edges' values and endpoints, and `A s` for the sparse
  product of `s` (row `src e` of `s` scaled by `ev e`, summed into row `dst e` over the edges `e`). Boundary by boundary:
  • at the launch every buffer holds its launch contents;
  • region 0 leaves `x · w₁` in its result array, and every buffer that is not one of its arrays as it was;
  • the first stretch leaves `A (x · w₁)` in the buffer region 1 reads its rows from and `b₁`, laid out as the one row of a
    1 × 96 array, in the buffer region 1 reads its bias from; it writes no argument;
  • region 1 leaves `H = max (A (x · w₁) + b₁) 0` in its result array;
  • region 2 leaves `H · w₂` in its result array;
  • the second stretch leaves `A (H · w₂)` and `b₂` as the one row of a 1 × 40 array: the two arrays region 3 reads.
  Each stretch is read once, at any contents it may start from; each region's result is that region's closed form at
  the contents it is entered with; the arguments are carried along unchanged. The two closing theorems rewrite with
  these, one boundary at a time, back to the launch.
-/
import proofs.«161073_j47416438948092_1_alg».proof.Proof.Gen.KernelIdeal.Frame
import proofs.«161073_j47416438948092_1_alg».proof.Proof.Spec
import proofs.«161073_j47416438948092_1_alg».proof.Proof.KernelTerms
import proofs.«161073_j47416438948092_1_alg».proof.Proof.Region0
import proofs.«161073_j47416438948092_1_alg».proof.Proof.Region1
import proofs.«161073_j47416438948092_1_alg».proof.Proof.Region2
import Idealize.ShloMosaic.Lib.StableHlo.Run
import Idealize.ShloMosaic.Lib.ValueIdx
import Idealize.ShloMosaic.Lib.ValueLayout

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo Idealize.ShloMosaic.ValueIdx

/-! ## The two stretches of whole-array operations, at any contents `W` they start from -/

/-- The first stretch leaves, in the buffer region 1 reads its rows from, the sparse product at width 96 of what
    region 0's result array held, with the edge values, sources and destinations of the arguments. -/
theorem stretch1_sparse (W : Valuation τ sig (Elt Ideal)) :
    StableHlo.after hostOps1 W (Proc.devRef .tc main_v13)
      = Terms.spmm96 (F := Ideal) (W (Proc.devRef .tc main_v0)) (W (Proc.devRef .tc main_arg1))
          (W (Proc.devRef .tc main_arg6)) (W (Proc.devRef .tc main_arg7)) := by
  after_results
  rfl

/-- The first stretch leaves, in the buffer region 1 reads its bias from, the first bias vector as a 1 × 96 row. -/
theorem stretch1_bias (W : Valuation τ sig (Elt Ideal)) :
    StableHlo.after hostOps1 W (Proc.devRef .tc main_v14) = Cert.Gcn.rowOf (d := 96) (W (Proc.devRef .tc main_arg3)) := by
  after_results
  refine funext fun (i : S1x96.Idx) => ?_
  obtain ⟨u, q, rfl⟩ : ∃ (u : Fin 1) (q : Fin 96), i = ix2 u q := ⟨i 0, i 1, eq_ix2 i⟩
  show shapeCast (⟨2, ![1, 96]⟩ : Shape) (W (Proc.devRef .tc main_arg3)) shapeCasts_S96_S1x96 (ix2 u q) = _
  rw [shapeCast_a_1a_apply]
  rfl

/-- The first stretch writes none of the arguments read after it. -/
theorem stretch1_arg1 (W : Valuation τ sig (Elt Ideal)) :
    StableHlo.after hostOps1 W (Proc.devRef .tc main_arg1) = W (Proc.devRef .tc main_arg1) := by after_results
theorem stretch1_arg4 (W : Valuation τ sig (Elt Ideal)) :
    StableHlo.after hostOps1 W (Proc.devRef .tc main_arg4) = W (Proc.devRef .tc main_arg4) := by after_results
theorem stretch1_arg5 (W : Valuation τ sig (Elt Ideal)) :
    StableHlo.after hostOps1 W (Proc.devRef .tc main_arg5) = W (Proc.devRef .tc main_arg5) := by after_results
theorem stretch1_arg6 (W : Valuation τ sig (Elt Ideal)) :
    StableHlo.after hostOps1 W (Proc.devRef .tc main_arg6) = W (Proc.devRef .tc main_arg6) := by after_results
theorem stretch1_arg7 (W : Valuation τ sig (Elt Ideal)) :
    StableHlo.after hostOps1 W (Proc.devRef .tc main_arg7) = W (Proc.devRef .tc main_arg7) := by after_results

/-- The second stretch leaves, in the buffer region 3 reads its rows from, the sparse product at width 40 of what
    region 2's result array held. -/
theorem stretch3_sparse (W : Valuation τ sig (Elt Ideal)) :
    StableHlo.after hostOps3 W (Proc.devRef .tc main_v29)
      = Terms.spmm40 (F := Ideal) (W (Proc.devRef .tc main_v16)) (W (Proc.devRef .tc main_arg1))
          (W (Proc.devRef .tc main_arg6)) (W (Proc.devRef .tc main_arg7)) := by
  after_results
  rfl

/-- The second stretch leaves, in the buffer region 3 reads its bias from, the second bias vector as a 1 × 40 row. -/
theorem stretch3_bias (W : Valuation τ sig (Elt Ideal)) :
    StableHlo.after hostOps3 W (Proc.devRef .tc main_v30) = Cert.Gcn.rowOf (d := 40) (W (Proc.devRef .tc main_arg5)) := by
  after_results
  refine funext fun (i : S1x40.Idx) => ?_
  obtain ⟨u, q, rfl⟩ : ∃ (u : Fin 1) (q : Fin 40), i = ix2 u q := ⟨i 0, i 1, eq_ix2 i⟩
  show shapeCast (⟨2, ![1, 40]⟩ : Shape) (W (Proc.devRef .tc main_arg5)) shapeCasts_S40_S1x40 (ix2 u q) = _
  rw [shapeCast_a_1a_apply]
  rfl

variable (m : (ℓ : Loc nD τ sig) → Buf (Elt Ideal) ℓ) (ρ : Dev nD → PrngReg)

/-! ## The layers' arrays, as terms of the launch memory -/

/-- The first dense product `x · w₁`. -/
abbrev dense1 (c : Dev nD) : FVec Ideal ⟨2, ![50000, 96]⟩ .f32 :=
  Cert.Gcn.matProd (n := 50000) (k := 128) (p := 96) (m ((c.tc : Thread nD τ).loc main_arg0)) (m ((c.tc : Thread nD τ).loc main_arg2))
/-- Its sparse product `A (x · w₁)`. -/
abbrev sparse1 (c : Dev nD) : FVec Ideal ⟨2, ![50000, 96]⟩ .f32 :=
  Terms.spmm96 (dense1 m c) (m ((c.tc : Thread nD τ).loc main_arg1)) (m ((c.tc : Thread nD τ).loc main_arg6)) (m ((c.tc : Thread nD τ).loc main_arg7))
/-- The hidden layer `H = max (A (x · w₁) + b₁) 0`. -/
abbrev hidden (c : Dev nD) : FVec Ideal ⟨2, ![50000, 96]⟩ .f32 :=
  Cert.Gcn.biasPos (n := 50000) (d := 96) (sparse1 m c) (Cert.Gcn.rowOf (m ((c.tc : Thread nD τ).loc main_arg3)))
/-- The second dense product `H · w₂`. -/
abbrev dense2 (c : Dev nD) : FVec Ideal ⟨2, ![50000, 40]⟩ .f32 :=
  Cert.Gcn.matProd (n := 50000) (k := 96) (p := 40) (hidden m c) (m ((c.tc : Thread nD τ).loc main_arg4))

/-! ## Region 0's exit -/

/-- A buffer that is none of region 0's arrays holds its launch contents. -/
theorem exit0_other (c : Dev nD) (b : Ref sig .tc) (hb : ∀ w, Pipeline.arrRef spec0 w ≠ b) :
    W1 m ρ c (Proc.devRef .tc b) = m ((c.tc : Thread nD τ).loc b) :=
  W1_of_ne m ρ c b hb

/-- Region 0's result array holds the first dense product. -/
theorem exit0_result (c : Dev nD) : W1 m ρ c (Proc.devRef .tc main_v0) = dense1 m c :=
  (W1_arr m ρ c 2).trans (Region0.final (V0 m ρ) c)

/-! ## Region 1's entry: after the first stretch -/

/-- The rows region 1 reads: the sparse product of the first dense product. -/
theorem entry1_rows (c : Dev nD) : W2 m ρ c (Proc.devRef .tc main_v13) = sparse1 m c := by
  show StableHlo.after hostOps1 (W1 m ρ c) (Proc.devRef .tc main_v13) = _
  rw [stretch1_sparse, exit0_result, exit0_other m ρ c main_arg1 (by decide), exit0_other m ρ c main_arg6 (by decide),
    exit0_other m ρ c main_arg7 (by decide)]

/-- The bias region 1 reads: the first bias vector as a row. -/
theorem entry1_bias (c : Dev nD) :
    W2 m ρ c (Proc.devRef .tc main_v14) = Cert.Gcn.rowOf (d := 96) (m ((c.tc : Thread nD τ).loc main_arg3)) := by
  show StableHlo.after hostOps1 (W1 m ρ c) (Proc.devRef .tc main_v14) = _
  rw [stretch1_bias, exit0_other m ρ c main_arg3 (by decide)]

/-- The arguments read later are still as launched. -/
theorem entry1_arg1 (c : Dev nD) : W2 m ρ c (Proc.devRef .tc main_arg1) = m ((c.tc : Thread nD τ).loc main_arg1) :=
  (stretch1_arg1 (W1 m ρ c)).trans (exit0_other m ρ c main_arg1 (by decide))
theorem entry1_arg4 (c : Dev nD) : W2 m ρ c (Proc.devRef .tc main_arg4) = m ((c.tc : Thread nD τ).loc main_arg4) :=
  (stretch1_arg4 (W1 m ρ c)).trans (exit0_other m ρ c main_arg4 (by decide))
theorem entry1_arg5 (c : Dev nD) : W2 m ρ c (Proc.devRef .tc main_arg5) = m ((c.tc : Thread nD τ).loc main_arg5) :=
  (stretch1_arg5 (W1 m ρ c)).trans (exit0_other m ρ c main_arg5 (by decide))
theorem entry1_arg6 (c : Dev nD) : W2 m ρ c (Proc.devRef .tc main_arg6) = m ((c.tc : Thread nD τ).loc main_arg6) :=
  (stretch1_arg6 (W1 m ρ c)).trans (exit0_other m ρ c main_arg6 (by decide))
theorem entry1_arg7 (c : Dev nD) : W2 m ρ c (Proc.devRef .tc main_arg7) = m ((c.tc : Thread nD τ).loc main_arg7) :=
  (stretch1_arg7 (W1 m ρ c)).trans (exit0_other m ρ c main_arg7 (by decide))

/-! ## Region 1's exit, which is region 2's entry -/

/-- Region 1's result array holds the hidden layer. -/
theorem exit1_result (c : Dev nD) : W3 m ρ c (Proc.devRef .tc main_v15) = hidden m c :=
  (W3_arr m ρ c 2).trans ((Region1.final (V2 m ρ) c).trans (by
    show Cert.Gcn.biasPos (n := 50000) (d := 96) (W2 m ρ c (Proc.devRef .tc main_v13)) (W2 m ρ c (Proc.devRef .tc main_v14)) = _
    rw [entry1_rows, entry1_bias]))

/-- The arguments read later are not among region 1's arrays. -/
theorem entry2_arg1 (c : Dev nD) : W3 m ρ c (Proc.devRef .tc main_arg1) = m ((c.tc : Thread nD τ).loc main_arg1) :=
  (W3_of_ne m ρ c main_arg1 (by decide)).trans (entry1_arg1 m ρ c)
theorem entry2_arg4 (c : Dev nD) : W3 m ρ c (Proc.devRef .tc main_arg4) = m ((c.tc : Thread nD τ).loc main_arg4) :=
  (W3_of_ne m ρ c main_arg4 (by decide)).trans (entry1_arg4 m ρ c)
theorem entry2_arg5 (c : Dev nD) : W3 m ρ c (Proc.devRef .tc main_arg5) = m ((c.tc : Thread nD τ).loc main_arg5) :=
  (W3_of_ne m ρ c main_arg5 (by decide)).trans (entry1_arg5 m ρ c)
theorem entry2_arg6 (c : Dev nD) : W3 m ρ c (Proc.devRef .tc main_arg6) = m ((c.tc : Thread nD τ).loc main_arg6) :=
  (W3_of_ne m ρ c main_arg6 (by decide)).trans (entry1_arg6 m ρ c)
theorem entry2_arg7 (c : Dev nD) : W3 m ρ c (Proc.devRef .tc main_arg7) = m ((c.tc : Thread nD τ).loc main_arg7) :=
  (W3_of_ne m ρ c main_arg7 (by decide)).trans (entry1_arg7 m ρ c)

/-! ## Region 2's exit -/

/-- Region 2's result array holds the second dense product. -/
theorem exit2_result (c : Dev nD) : W4 m ρ c (Proc.devRef .tc main_v16) = dense2 m c :=
  (W4_arr m ρ c 2).trans ((Region2.final (V3 m ρ) c).trans (by
    show Cert.Gcn.matProd (n := 50000) (k := 96) (p := 40) (W3 m ρ c (Proc.devRef .tc main_v15)) (W3 m ρ c (Proc.devRef .tc main_arg4)) = _
    rw [exit1_result, entry2_arg4]))

/-- The arguments the second stretch reads are not among region 2's arrays. -/
theorem exit2_arg1 (c : Dev nD) : W4 m ρ c (Proc.devRef .tc main_arg1) = m ((c.tc : Thread nD τ).loc main_arg1) :=
  (W4_of_ne m ρ c main_arg1 (by decide)).trans (entry2_arg1 m ρ c)
theorem exit2_arg5 (c : Dev nD) : W4 m ρ c (Proc.devRef .tc main_arg5) = m ((c.tc : Thread nD τ).loc main_arg5) :=
  (W4_of_ne m ρ c main_arg5 (by decide)).trans (entry2_arg5 m ρ c)
theorem exit2_arg6 (c : Dev nD) : W4 m ρ c (Proc.devRef .tc main_arg6) = m ((c.tc : Thread nD τ).loc main_arg6) :=
  (W4_of_ne m ρ c main_arg6 (by decide)).trans (entry2_arg6 m ρ c)
theorem exit2_arg7 (c : Dev nD) : W4 m ρ c (Proc.devRef .tc main_arg7) = m ((c.tc : Thread nD τ).loc main_arg7) :=
  (W4_of_ne m ρ c main_arg7 (by decide)).trans (entry2_arg7 m ρ c)

/-! ## Region 3's entry: after the second stretch -/

/-- The rows region 3 reads: the sparse product of the second dense product. -/
theorem entry3_logits (c : Dev nD) : V5 (F := Ideal) m ρ c main_v29 = Terms.spmm40 (Cert.Gcn.matProd (n := 50000) (k := 96) (p := 40) (Cert.Gcn.biasPos (n := 50000) (d := 96) (Terms.spmm96 (Cert.Gcn.matProd (n := 50000) (k := 128) (p := 96) (m ((c.tc : Thread nD τ).loc main_arg0)) (m ((c.tc : Thread nD τ).loc main_arg2))) (m ((c.tc : Thread nD τ).loc main_arg1)) (m ((c.tc : Thread nD τ).loc main_arg6)) (m ((c.tc : Thread nD τ).loc main_arg7))) (Cert.Gcn.rowOf (m ((c.tc : Thread nD τ).loc main_arg3)))) (m ((c.tc : Thread nD τ).loc main_arg4))) (m ((c.tc : Thread nD τ).loc main_arg1)) (m ((c.tc : Thread nD τ).loc main_arg6)) (m ((c.tc : Thread nD τ).loc main_arg7)) := by
  show StableHlo.after hostOps3 (W4 m ρ c) (Proc.devRef .tc main_v29) = _
  rw [stretch3_sparse, exit2_result, exit2_arg1, exit2_arg6, exit2_arg7]

/-- The bias region 3 reads: the second bias vector as a row. -/
theorem entry3_bias (c : Dev nD) : V5 (F := Ideal) m ρ c main_v30 = Cert.Gcn.rowOf (m ((c.tc : Thread nD τ).loc main_arg5)) := by
  show StableHlo.after hostOps3 (W4 m ρ c) (Proc.devRef .tc main_v30) = _
  rw [stretch3_bias, exit2_arg5]

end Cert.KernelIdeal.Chain

end
-- ==== Proof.RefStages.lean ====
/-
  The reference program's dense stages against the specification's functions, at the extended reals.

  Each stage is a whole-array term of host operations; read at an index it is the specification's entry.
  A matrix product: the host's contraction over one axis, read at `(r, q)`, is a sum over the contraction's index
  set; that set has one axis, so it is re-indexed by the one coordinate `j`, and the operands' indices at `(r, q)` and
  `j` are `(r, j)` and `(j, q)` (four coordinate facts, one per operand axis). The bias and positive part: the bias
  vector is laid as one row, the row is repeated down the rows, so at `(r, q)` it reads the vector at `q`; the sum and
  the maximum are taken entry by entry, and the other operand of the maximum is the zero word's value at every index.
-/
import proofs.«161073_j47416438948092_1_alg».proof.Proof.RefTerms
import proofs.«161073_j47416438948092_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Stages

open Cert.ReferenceIdeal Cert.ReferenceIdeal.Gen Cert.ReferenceIdeal.Terms Idealize.ShloMosaic Idealize.ShloMosaic.ValueIdx

/-! ## The first layer's matrix product -/

/-- The left operand's row coordinate is the result's row … -/
theorem lhs96_0 (i : S50000x96.Idx) (q : dot_S50000x128_S128x96_S50000x96_1_0_0_1_n_n.contr.Idx) :
    (dot_S50000x128_S128x96_S50000x96_1_0_0_1_n_n.lhsIdx i q 0).val = (i 0).val := by
  unfold DotDims.lhsIdx
  rw [dif_neg (show ¬(0 : Fin S50000x128.rank) ∈ dot_S50000x128_S128x96_S50000x96_1_0_0_1_n_n.lhsBatch by decide), dif_pos (show (0 : Fin S50000x128.rank) ∈ dot_S50000x128_S128x96_S50000x96_1_0_0_1_n_n.lhsNonContracting by decide)]
  rfl
/-- … its column coordinate the contraction position … -/
theorem lhs96_1 (i : S50000x96.Idx) (q : dot_S50000x128_S128x96_S50000x96_1_0_0_1_n_n.contr.Idx) :
    (dot_S50000x128_S128x96_S50000x96_1_0_0_1_n_n.lhsIdx i q 1).val = (q ⟨0, by decide⟩).val :=
  dot_S50000x128_S128x96_S50000x96_1_0_0_1_n_n.lhsIdx_val_of_single rfl i q
/-- … the right operand's row coordinate the contraction position … -/
theorem rhs96_0 (i : S50000x96.Idx) (q : dot_S50000x128_S128x96_S50000x96_1_0_0_1_n_n.contr.Idx) :
    (dot_S50000x128_S128x96_S50000x96_1_0_0_1_n_n.rhsIdx i q 0).val = (q ⟨0, by decide⟩).val :=
  dot_S50000x128_S128x96_S50000x96_1_0_0_1_n_n.rhsIdx_val_of_single rfl i q
/-- … and its column coordinate the result's column. -/
theorem rhs96_1 (i : S50000x96.Idx) (q : dot_S50000x128_S128x96_S50000x96_1_0_0_1_n_n.contr.Idx) :
    (dot_S50000x128_S128x96_S50000x96_1_0_0_1_n_n.rhsIdx i q 1).val = (i 1).val := by
  unfold DotDims.rhsIdx
  rw [dif_neg (show ¬(1 : Fin S128x96.rank) ∈ dot_S50000x128_S128x96_S50000x96_1_0_0_1_n_n.rhsBatch by decide), dif_pos (show (1 : Fin S128x96.rank) ∈ dot_S50000x128_S128x96_S50000x96_1_0_0_1_n_n.rhsNonContracting by decide)]
  rfl

/-! ## The second layer's matrix product -/

/-- The left operand's row coordinate is the result's row … -/
theorem lhs40_0 (i : S50000x40.Idx) (q : dot_S50000x96_S96x40_S50000x40_1_0_0_1_n_n.contr.Idx) :
    (dot_S50000x96_S96x40_S50000x40_1_0_0_1_n_n.lhsIdx i q 0).val = (i 0).val := by
  unfold DotDims.lhsIdx
  rw [dif_neg (show ¬(0 : Fin S50000x96.rank) ∈ dot_S50000x96_S96x40_S50000x40_1_0_0_1_n_n.lhsBatch by decide), dif_pos (show (0 : Fin S50000x96.rank) ∈ dot_S50000x96_S96x40_S50000x40_1_0_0_1_n_n.lhsNonContracting by decide)]
  rfl
/-- … its column coordinate the contraction position … -/
theorem lhs40_1 (i : S50000x40.Idx) (q : dot_S50000x96_S96x40_S50000x40_1_0_0_1_n_n.contr.Idx) :
    (dot_S50000x96_S96x40_S50000x40_1_0_0_1_n_n.lhsIdx i q 1).val = (q ⟨0, by decide⟩).val :=
  dot_S50000x96_S96x40_S50000x40_1_0_0_1_n_n.lhsIdx_val_of_single rfl i q
/-- … the right operand's row coordinate the contraction position … -/
theorem rhs40_0 (i : S50000x40.Idx) (q : dot_S50000x96_S96x40_S50000x40_1_0_0_1_n_n.contr.Idx) :
    (dot_S50000x96_S96x40_S50000x40_1_0_0_1_n_n.rhsIdx i q 0).val = (q ⟨0, by decide⟩).val :=
  dot_S50000x96_S96x40_S50000x40_1_0_0_1_n_n.rhsIdx_val_of_single rfl i q
/-- … and its column coordinate the result's column. -/
theorem rhs40_1 (i : S50000x40.Idx) (q : dot_S50000x96_S96x40_S50000x40_1_0_0_1_n_n.contr.Idx) :
    (dot_S50000x96_S96x40_S50000x40_1_0_0_1_n_n.rhsIdx i q 1).val = (i 1).val := by
  unfold DotDims.rhsIdx
  rw [dif_neg (show ¬(1 : Fin S96x40.rank) ∈ dot_S50000x96_S96x40_S50000x40_1_0_0_1_n_n.rhsBatch by decide), dif_pos (show (1 : Fin S96x40.rank) ∈ dot_S50000x96_S96x40_S50000x40_1_0_0_1_n_n.rhsNonContracting by decide)]
  rfl

/-! ## The first layer's bias and positive part -/

/-- The bias vector laid as one row and the row repeated down the rows reads, at `(r, q)`, the vector at `q`. -/
theorem biasRows_apply (b : FVec Ideal S96 .f32) (i : S50000x96.Idx) :
    broadcastInDim S50000x96 ![0, 1] bcast_S1x96_S50000x96_0_1 (broadcastInDim S1x96 ![1] bcast_S96_S1x96_1 b) i
      = b (ix1 (⟨(i 1).val, (i 1).isLt⟩ : Fin 96)) := by
  refine (broadcastInDim_apply _ bcast_S1x96_S50000x96_0_1 _ i (ix2 (0 : Fin 1) (⟨(i 1).val, (i 1).isLt⟩ : Fin 96))
    (fun a => match a with
      | ⟨0, _⟩ => by show 0 = if (1 : Nat) = 1 then 0 else (i 0).val; rw [if_pos rfl]
      | ⟨1, _⟩ => by show (i 1).val = if (96 : Nat) = 1 then 0 else (i 1).val; rw [if_neg (by decide)])).trans ?_
  exact broadcastInDim_apply _ bcast_S96_S1x96_1 b _ (ix1 (⟨(i 1).val, (i 1).isLt⟩ : Fin 96))
    (fun a => match a with
      | ⟨0, _⟩ => by show (i 1).val = if (96 : Nat) = 1 then 0 else (i 1).val; rw [if_neg (by decide)])

/-- The zero word repeated over the array reads its value at every index. -/
theorem zeros_apply (i : S50000x96.Idx) :
    broadcastInDim S50000x96 ![] bcast_S_S50000x96 (constant (F := Ideal) S_ .f32 0x00000000#32) i
      = Ideal.ofBits .f32 0x00000000#32 :=
  (broadcastInDim_apply _ bcast_S_S50000x96 _ i ix0 (fun a => a.elim0)).trans (constant_apply _ _)

/-! ## The three stages -/

/-- THE FIRST LAYER'S PRODUCT: entry `(r, q)` of the host's contraction is the sum over the one contracted coordinate
    `j` of the left operand at `(r, j)` times the right at `(j, q)`: the contraction index is that one coordinate. -/
theorem dot96_eq (x : FVec Ideal S50000x128 .f32) (w : FVec Ideal S128x96 .f32) :
    dot96 (F := Ideal) x w = Cert.Gcn.matProd (n := 50000) (k := 128) (p := 96) x w := by
  funext i
  unfold dot96 Cert.Gcn.matProd
  simp only [Host.dotGeneral]
  rw [Ideal.dotGeneral_apply, ← Equiv.sum_comp (contrEquiv1 dot_S50000x128_S128x96_S50000x96_1_0_0_1_n_n 128 rfl rfl).symm]
  refine Finset.sum_congr rfl fun k _ => ?_
  have hk := contrEquiv1_symm_val dot_S50000x128_S128x96_S50000x96_1_0_0_1_n_n 128 rfl rfl k
  have el : dot_S50000x128_S128x96_S50000x96_1_0_0_1_n_n.lhsIdx i ((contrEquiv1 dot_S50000x128_S128x96_S50000x96_1_0_0_1_n_n 128 rfl rfl).symm k)
      = ix2 (⟨(i 0).val, (i 0).isLt⟩ : Fin 50000) k := funext fun a => Fin.ext (by
    match a with
    | ⟨0, _⟩ => exact lhs96_0 _ _
    | ⟨1, _⟩ => exact (lhs96_1 _ _).trans hk)
  have er : dot_S50000x128_S128x96_S50000x96_1_0_0_1_n_n.rhsIdx i ((contrEquiv1 dot_S50000x128_S128x96_S50000x96_1_0_0_1_n_n 128 rfl rfl).symm k)
      = ix2 k (⟨(i 1).val, (i 1).isLt⟩ : Fin 96) := funext fun a => Fin.ext (by
    match a with
    | ⟨0, _⟩ => exact (rhs96_0 _ _).trans hk
    | ⟨1, _⟩ => exact rhs96_1 _ _)
  rw [el, er]

/-- THE SECOND LAYER'S PRODUCT: entry `(r, q)` of the host's contraction is the sum over the one contracted coordinate
    `j` of the left operand at `(r, j)` times the right at `(j, q)`: the contraction index is that one coordinate. -/
theorem dot40_eq (h : FVec Ideal S50000x96 .f32) (w : FVec Ideal S96x40 .f32) :
    dot40 (F := Ideal) h w = Cert.Gcn.matProd (n := 50000) (k := 96) (p := 40) h w := by
  funext i
  unfold dot40 Cert.Gcn.matProd
  simp only [Host.dotGeneral]
  rw [Ideal.dotGeneral_apply, ← Equiv.sum_comp (contrEquiv1 dot_S50000x96_S96x40_S50000x40_1_0_0_1_n_n 96 rfl rfl).symm]
  refine Finset.sum_congr rfl fun k _ => ?_
  have hk := contrEquiv1_symm_val dot_S50000x96_S96x40_S50000x40_1_0_0_1_n_n 96 rfl rfl k
  have el : dot_S50000x96_S96x40_S50000x40_1_0_0_1_n_n.lhsIdx i ((contrEquiv1 dot_S50000x96_S96x40_S50000x40_1_0_0_1_n_n 96 rfl rfl).symm k)
      = ix2 (⟨(i 0).val, (i 0).isLt⟩ : Fin 50000) k := funext fun a => Fin.ext (by
    match a with
    | ⟨0, _⟩ => exact lhs40_0 _ _
    | ⟨1, _⟩ => exact (lhs40_1 _ _).trans hk)
  have er : dot_S50000x96_S96x40_S50000x40_1_0_0_1_n_n.rhsIdx i ((contrEquiv1 dot_S50000x96_S96x40_S50000x40_1_0_0_1_n_n 96 rfl rfl).symm k)
      = ix2 k (⟨(i 1).val, (i 1).isLt⟩ : Fin 40) := funext fun a => Fin.ext (by
    match a with
    | ⟨0, _⟩ => exact (rhs40_0 _ _).trans hk
    | ⟨1, _⟩ => exact rhs40_1 _ _)
  rw [el, er]

/-- THE BIAS AND POSITIVE PART: entry `(r, q)` is `max (h (r, q) + b q) z`, `z` the zero word's value: the specification's
    function at the bias laid as one row. -/
theorem biasRelu96_eq (h : FVec Ideal S50000x96 .f32) (b : FVec Ideal S96 .f32) :
    biasRelu96 (F := Ideal) h b = Cert.Gcn.biasPos (n := 50000) (d := 96) h (Cert.Gcn.rowOf b) := by
  funext i
  unfold biasRelu96
  rw [maximumf_apply, addf_apply, biasRows_apply, zeros_apply]
  rfl

end Cert.ReferenceIdeal.Stages

end
-- ==== Proof.RefSoftmax.lean ====
/-
  THE REFERENCE'S BIAS ADD AND ROW-WISE LOG-SOFTMAX, as a whole-array term of host operations, is the specification's
  log-softmax over the extended reals.

  The term: the bias vector (length 40) is broadcast to one row and then along the 50000 rows and added to the array; a row's
  maximum is the host's max-reduction along the columns from the value of the word 0xFF800000, taken once more against
  that same value; the maximum is broadcast back as a column and along the columns and subtracted; the exponentials of the
  differences are summed along the columns by the host's add-reduction from the zero word; the logarithm of the sums is
  broadcast back in the same way and subtracted.

  The proof reads each operation at an entry (r, q). A broadcast reads its operand at the coordinates it keeps. A
  reduction along the columns at row r is a fold, or a sum, over the 40 entries (r, j) of the row. The extra maximum
  against the fold's own starting value changes nothing, because a fold of max is at least its starting value — so the
  value of the word is never looked at. The zero word is the extended real 0, which a sum absorbs. What remains at (r, q)
  is, term by term, the specification: the logit minus the row's maximum, minus the logarithm of the row's sum of
  exponentials of those differences.
-/
import proofs.«161073_j47416438948092_1_alg».proof.Proof.RefTerms
import proofs.«161073_j47416438948092_1_alg».proof.Proof.Spec
import Idealize.ShloMosaic.Lib.Pipeline.Value
import Idealize.ShloMosaic.Lib.ValueIdx
import Idealize.ShloMosaic.Lib.IdealHost
import Idealize.ShloMosaic.PureOps.Ideal.Laws
import Idealize.ShloMosaic.PureOps.Reduce

set_option maxRecDepth 16384

noncomputable section

namespace Cert.ReferenceIdeal.Softmax

open Cert.ReferenceIdeal Cert.ReferenceIdeal.Gen Cert.ReferenceIdeal.Terms Idealize.ShloMosaic Idealize.ShloMosaic.ValueIdx

/-! ## The four broadcasts read at an entry -/

section Broadcasts
variable {α : Type}

/-- A vector of length 40 broadcast to the one row of a `1 × 40` array reads, at `(u, q)`, the vector at `q`. -/
theorem row_of_vector (b : S40.Idx → α) (u : Fin 1) (q : Fin 40) :
    broadcastInDim S1x40 ![1] bcast_S40_S1x40_1 b (ix2 u q) = b (ix1 q) := by
  refine broadcastInDim_apply _ bcast_S40_S1x40_1 b (ix2 u q) (ix1 q) fun a => ?_
  match a with
  | ⟨0, _⟩ => rfl

/-- A `1 × 40` row broadcast along 50000 rows reads, at `(r, q)`, the row at `(0, q)`. -/
theorem rows_of_row (v : S1x40.Idx → α) (r : Fin 50000) (q : Fin 40) :
    broadcastInDim S50000x40 ![0, 1] bcast_S1x40_S50000x40_0_1 v (ix2 r q) = v (ix2 (0 : Fin 1) q) := by
  refine broadcastInDim_apply _ bcast_S1x40_S50000x40_0_1 v (ix2 r q) (ix2 (0 : Fin 1) q) fun a => ?_
  match a with
  | ⟨0, _⟩ => rfl
  | ⟨1, _⟩ => rfl

/-- A vector of length 50000 broadcast to the one column of a `50000 × 1` array reads, at `(r, u)`, the vector at `r`. -/
theorem column_of_vector (m : S50000.Idx → α) (r : Fin 50000) (u : Fin 1) :
    broadcastInDim S50000x1 ![0] bcast_S50000_S50000x1_0 m (ix2 r u) = m (ix1 r) := by
  refine broadcastInDim_apply _ bcast_S50000_S50000x1_0 m (ix2 r u) (ix1 r) fun a => ?_
  match a with
  | ⟨0, _⟩ => rfl

/-- A `50000 × 1` column broadcast along 40 columns reads, at `(r, q)`, the column at `(r, 0)`. -/
theorem columns_of_column (v : S50000x1.Idx → α) (r : Fin 50000) (q : Fin 40) :
    broadcastInDim S50000x40 ![0, 1] bcast_S50000x1_S50000x40_0_1 v (ix2 r q) = v (ix2 r (0 : Fin 1)) := by
  refine broadcastInDim_apply _ bcast_S50000x1_S50000x40_0_1 v (ix2 r q) (ix2 r (0 : Fin 1)) fun a => ?_
  match a with
  | ⟨0, _⟩ => rfl
  | ⟨1, _⟩ => rfl

end Broadcasts

/-! ## A reduction along the columns, at a row -/

/-- The columns of a `50000 × 40` array are dropped to leave a vector of length 50000. -/
theorem reduces_columns : S50000x40.Reduces [1] S50000 := by decide

/-- The source index over row `r` with column `j` put back is `(r, j)`. -/
theorem lift_row (r : Fin 50000) (j : Fin 40) : reduces_columns.lift (ix1 r) j = (ix2 r j : S50000x40.Idx) := by
  funext a
  match a with
  | ⟨0, _⟩ => exact Fin.ext rfl
  | ⟨1, _⟩ => exact Fin.ext rfl

/-- The host's exponential at an entry is the extended reals' exponential of the entry. -/
theorem hostExp_apply {s : Shape} (v : FVec Ideal s .f32) (i : s.Idx) : Host.exp v i = Ideal.exp (v i) := rfl

/-- The host's logarithm at an entry is the extended reals' logarithm of the entry. -/
theorem hostLog_apply {s : Shape} (v : FVec Ideal s .f32) (i : s.Idx) : Host.log v i = Ideal.log (v i) := rfl

/-- A difference of equal terms. -/
theorem sub_congr {a a' b b' : EReal} (ha : a = a') (hb : b = b') : a - b = a' - b' := by rw [ha, hb]

/-! ## The term's stages read at an entry -/

section Stages
variable (o : FVec Ideal S50000x40 .f32) (b : FVec Ideal S40 .f32) (z : FVec Ideal S50000x40 .f32)

/-- The bias add at `(r, q)` is the logit of the specification. -/
theorem bias40_apply (r : Fin 50000) (q : Fin 40) :
    bias40 (F := Ideal) o b (ix2 r q) = Cert.Gcn.logits (n := 50000) (d := 40) o (Cert.Gcn.rowOf b) r q := by
  unfold bias40 Cert.Gcn.logits
  exact congrArg (o (ix2 r q) + ·) ((rows_of_row _ r q).trans (row_of_vector b 0 q))

/-- The host's max-reduction along the columns, at row `r`: the fold of `max` over the row's 40 entries from the value
    of the starting word. -/
theorem hostMax_apply (r : Fin 50000) :
    Host.reduce FloatOps.maximumf z (constant (F := Ideal) S_ .f32 0xFF800000#32) reducesTo_S50000x40_S50000_d1 h_S_ (ix1 r)
      = (Finset.univ : Finset (Fin 40)).fold max (Ideal.ofBits .f32 0xFF800000#32) (fun j => z (ix2 r j)) := by
  refine (Host.reduce_eq_fold_single FloatOps.maximumf z (constant (F := Ideal) S_ .f32 0xFF800000#32)
    reducesTo_S50000x40_S50000_d1 reduces_columns h_S_ (ix1 r)).trans ?_
  refine congrArg (fun f : Fin 40 → EReal => (Finset.univ : Finset (Fin 40)).fold max (Ideal.ofBits .f32 0xFF800000#32) f)
    (funext fun j => ?_)
  exact congrArg z (lift_row r j)

/-- A row's maximum as the program takes it is the fold of `max` over the row from the value of the word `0xFF800000`:
    the second maximum, against the fold's own starting value, is absorbed (a fold of `max` is at least where it starts). -/
theorem rowMaxHost_apply (r : Fin 50000) :
    rowMaxHost (F := Ideal) z (ix1 r)
      = (Finset.univ : Finset (Fin 40)).fold max (Ideal.ofBits .f32 0xFF800000#32) (fun j => z (ix2 r j)) := by
  unfold rowMaxHost
  refine (maximumf_apply _ _ (ix1 r)).trans ?_
  refine (congrArg₂ max (broadcastInDim_scalar_apply bcast_S_S50000 (constant (F := Ideal) S_ .f32 0xFF800000#32) (ix1 r))
    (hostMax_apply z r)).trans ?_
  exact max_eq_right ((Finset.le_fold_max _).mpr (Or.inl le_rfl))

/-- A shifted entry: the entry minus its row's maximum. -/
theorem shiftedHost_apply (r : Fin 50000) (q : Fin 40) :
    shiftedHost (F := Ideal) z (ix2 r q) = z (ix2 r q) - rowMaxHost (F := Ideal) z (ix1 r) := by
  unfold shiftedHost
  refine (subf_apply _ _ (ix2 r q)).trans ?_
  exact congrArg (z (ix2 r q) - ·) ((columns_of_column _ r q).trans (column_of_vector _ r 0))

/-- The host's add-reduction along the columns from the zero word, at row `r`: the sum of the row's 40 entries. -/
theorem hostSum_apply (x : FVec Ideal S50000x40 .f32) (r : Fin 50000) :
    Host.reduceAdd x (constant (F := Ideal) S_ .f32 0x00000000#32) reducesTo_S50000x40_S50000_d1 h_S_ (ix1 r)
      = ∑ j : Fin 40, x (ix2 r j) := by
  refine (hostReduceAdd_apply x _ reducesTo_S50000x40_S50000_d1 h_S_ (ix1 r)).trans ?_
  refine (Ideal.hostReduceAdd_single reducesTo_S50000x40_S50000_d1 reduces_columns x _ (ix1 r)).trans ?_
  exact (congrArg₂ (fun u v : EReal => u + v) Ideal.ofBits_zero_f32
    (Finset.sum_congr rfl fun j _ => congrArg x (lift_row r j))).trans (zero_add _)

/-- The log-softmax at `(r, q)`: the shifted entry minus the logarithm of the row's sum of exponentials of the shifted
    entries. -/
theorem logSoftmaxHost_apply (r : Fin 50000) (q : Fin 40) :
    logSoftmaxHost (F := Ideal) z (ix2 r q)
      = shiftedHost (F := Ideal) z (ix2 r q) - Ideal.log (∑ j : Fin 40, Ideal.exp (shiftedHost (F := Ideal) z (ix2 r j))) := by
  unfold logSoftmaxHost
  refine (subf_apply _ _ (ix2 r q)).trans ?_
  refine congrArg (shiftedHost (F := Ideal) z (ix2 r q) - ·) ?_
  refine (columns_of_column _ r q).trans ?_
  refine (hostLog_apply _ (ix2 r (0 : Fin 1))).trans ?_
  refine congrArg Ideal.log ((column_of_vector _ r 0).trans ?_)
  exact (hostSum_apply (Host.exp (shiftedHost (F := Ideal) z)) r).trans
    (Finset.sum_congr rfl fun j _ => hostExp_apply (shiftedHost (F := Ideal) z) (ix2 r j))

end Stages

/-! ## The whole term -/

/-- THE REFERENCE'S BIAS ADD AND LOG-SOFTMAX is the specification's, entry by entry. -/
theorem logSoftmax_eq (o : FVec Ideal S50000x40 .f32) (b : FVec Ideal S40 .f32) : logSoftmaxHost (F := Ideal) (bias40 (F := Ideal) o b) = Cert.Gcn.biasLogSoftmax (n := 50000) (d := 40) o (Cert.Gcn.rowOf b) := by
  funext i
  obtain ⟨r, q, rfl⟩ : ∃ (r : Fin 50000) (q : Fin 40), i = ix2 r q := ⟨i 0, i 1, eq_ix2 i⟩
  have hrow : (fun j : Fin 40 => bias40 (F := Ideal) o b (ix2 r j)) = Cert.Gcn.logits (n := 50000) (d := 40) o (Cert.Gcn.rowOf b) r :=
    funext fun j => bias40_apply o b r j
  have hmax : rowMaxHost (F := Ideal) (bias40 (F := Ideal) o b) (ix1 r) = Cert.Gcn.rowMax (n := 50000) (d := 40) o (Cert.Gcn.rowOf b) r := by
    exact (rowMaxHost_apply _ r).trans
      (congrArg (fun f : Fin 40 → EReal => (Finset.univ : Finset (Fin 40)).fold max (Ideal.ofBits .f32 0xFF800000#32) f) hrow)
  have hshift : ∀ j : Fin 40, shiftedHost (F := Ideal) (bias40 (F := Ideal) o b) (ix2 r j)
      = Cert.Gcn.logits (n := 50000) (d := 40) o (Cert.Gcn.rowOf b) r j - Cert.Gcn.rowMax (n := 50000) (d := 40) o (Cert.Gcn.rowOf b) r :=
    fun j => (shiftedHost_apply _ r j).trans (sub_congr (bias40_apply o b r j) hmax)
  refine (logSoftmaxHost_apply _ r q).trans ?_
  show _ = (Cert.Gcn.logits (n := 50000) (d := 40) o (Cert.Gcn.rowOf b) r q - Cert.Gcn.rowMax (n := 50000) (d := 40) o (Cert.Gcn.rowOf b) r)
      - Ideal.log (∑ j : Fin 40, Ideal.exp (Cert.Gcn.logits (n := 50000) (d := 40) o (Cert.Gcn.rowOf b) r j - Cert.Gcn.rowMax (n := 50000) (d := 40) o (Cert.Gcn.rowOf b) r))
  exact sub_congr (hshift q) (congrArg Ideal.log (Finset.sum_congr rfl fun j _ => congrArg Ideal.exp (hshift j)))

end Cert.ReferenceIdeal.Softmax

end
-- ==== Proof.Bridge.lean ====
/-
  The two programs compute one function. Both results are the row-wise log-softmax of `A · (relu (A · (x · W1) + b1) · W2) + b2`,
  `A` the sparse adjacency the edge lists spell, every dense stage one of the specification's functions and the two sparse
  products the same host operations in both programs. The kernel's side: the last tiled region leaves the log-softmax of
  what it was entered with, and what it was entered with is read back through the regions and host stretches to the launch
  memory. The reference's side: its result term, stage by stage. No law of the extended reals beyond the stages' own
  readings is used: the sums and maxima are taken over the same index sets in the same arrangement.
-/
import proofs.«161073_j47416438948092_1_alg».proof.Proof.Region3
import proofs.«161073_j47416438948092_1_alg».proof.Proof.KernelChain
import proofs.«161073_j47416438948092_1_alg».proof.Proof.RefStages
import proofs.«161073_j47416438948092_1_alg».proof.Proof.RefSoftmax

set_option maxRecDepth 16384

noncomputable section

namespace Cert.Gcn

open Idealize.ShloMosaic Idealize.ShloMosaic.TcCoe Idealize.SL.Sem

/-- The network's output as one function of the eight arguments, the sparse products spelt with the kernel program's
    host operations. -/
def network (x : FVec Ideal Cert.KernelIdeal.S50000x128 .f32) (ev : FVec Ideal Cert.KernelIdeal.S800000 .f32)
    (w1 : FVec Ideal Cert.KernelIdeal.S128x96 .f32) (b1 : FVec Ideal Cert.KernelIdeal.S96 .f32)
    (w2 : FVec Ideal Cert.KernelIdeal.S96x40 .f32) (b2 : FVec Ideal Cert.KernelIdeal.S40 .f32)
    (src dst : IVec Cert.KernelIdeal.S800000 32) : FVec Ideal Cert.KernelIdeal.S50000x40 .f32 :=
  biasLogSoftmax (n := 50000) (d := 40)
    (Cert.KernelIdeal.Terms.spmm40 (F := Ideal)
      (matProd (n := 50000) (k := 96) (p := 40)
        (biasPos (n := 50000) (d := 96)
          (Cert.KernelIdeal.Terms.spmm96 (F := Ideal) (matProd (n := 50000) (k := 128) (p := 96) x w1) ev src dst)
          (rowOf b1))
        w2)
      ev src dst)
    (rowOf b2)

/-- The sparse product is spelt with the same operations in both programs. -/
theorem spmm96_same (s : FVec Ideal Cert.KernelIdeal.S50000x96 .f32) (ev : FVec Ideal Cert.KernelIdeal.S800000 .f32)
    (src dst : IVec Cert.KernelIdeal.S800000 32) :
    Cert.ReferenceIdeal.Terms.spmm96 (F := Ideal) s ev src dst = Cert.KernelIdeal.Terms.spmm96 (F := Ideal) s ev src dst := rfl

theorem spmm40_same (s : FVec Ideal Cert.KernelIdeal.S50000x40 .f32) (ev : FVec Ideal Cert.KernelIdeal.S800000 .f32)
    (src dst : IVec Cert.KernelIdeal.S800000 32) :
    Cert.ReferenceIdeal.Terms.spmm40 (F := Ideal) s ev src dst = Cert.KernelIdeal.Terms.spmm40 (F := Ideal) s ev src dst := rfl

/-- THE KERNEL'S VALUE: what the last region's write-backs leave of the result array is the network's output of the
    launch memory's arguments. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (Cert.KernelIdeal.Gen.dat3 (F := Ideal) (Cert.KernelIdeal.Gen.V5 m ρ) c).arrAt 2 Cert.KernelIdeal.cfg3.N
      = network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  rw [Cert.KernelIdeal.Region3.final (Cert.KernelIdeal.Gen.V5 m ρ) c, Cert.KernelIdeal.Chain.entry3_logits m ρ c,
    Cert.KernelIdeal.Chain.entry3_bias m ρ c]
  rfl

/-- THE REFERENCE'S VALUE: its result term is the network's output of the same arguments. -/
theorem reference_value (x : FVec Ideal Cert.KernelIdeal.S50000x128 .f32) (ev : FVec Ideal Cert.KernelIdeal.S800000 .f32)
    (w1 : FVec Ideal Cert.KernelIdeal.S128x96 .f32) (b1 : FVec Ideal Cert.KernelIdeal.S96 .f32)
    (w2 : FVec Ideal Cert.KernelIdeal.S96x40 .f32) (b2 : FVec Ideal Cert.KernelIdeal.S40 .f32)
    (src dst : IVec Cert.KernelIdeal.S800000 32) :
    Cert.ReferenceIdeal.Terms.result (F := Ideal) x ev w1 b1 w2 b2 src dst = network x ev w1 b1 w2 b2 src dst := by
  unfold Cert.ReferenceIdeal.Terms.result network
  rw [Cert.ReferenceIdeal.Softmax.logSoftmax_eq, spmm40_same, Cert.ReferenceIdeal.Stages.dot40_eq,
    Cert.ReferenceIdeal.Stages.biasRelu96_eq, spmm96_same, Cert.ReferenceIdeal.Stages.dot96_eq]

end Cert.Gcn

end
-- ==== Proof.lean ====
/-
  The certificate of a two-layer graph convolution with a log-softmax head: four tiled kernels (two matrix products, a
  bias add with positive part, a bias add with row-wise log-softmax) between host gathers and scatter-adds, against the
  same network written with whole-array operations.

  The three frames: the tiled program's two instances by their generated frame certificates; the reference's by its run
  (`Cert.ReferenceIdeal.HandRun.run`) with the result dropped. The idealization rewrote nothing, so `preserves` is
  trivial. The value claim: the tiled program's run with its result named (`Cert.KernelIdeal.GenRun.run`) ends at the
  network's output of the launch arguments (`Cert.Gcn.kernel_value`), the reference's run at its result term, which is the
  same output (`Cert.Gcn.reference_value`) of arguments that agree. Finiteness of the inputs is never used: the two
  sides are the same sums, maxima, exponentials and logarithms of the same entries.
-/
import proofs.«161073_j47416438948092_1_alg».proof.Defs
import proofs.«161073_j47416438948092_1_alg».proof.Proof.Gen.Kernel
import proofs.«161073_j47416438948092_1_alg».proof.Proof.Gen.Kernel.Frame
import proofs.«161073_j47416438948092_1_alg».proof.Proof.Gen.KernelIdeal
import proofs.«161073_j47416438948092_1_alg».proof.Proof.Gen.KernelIdeal.Frame
import proofs.«161073_j47416438948092_1_alg».proof.Proof.Gen.ReferenceIdeal
import proofs.«161073_j47416438948092_1_alg».proof.Proof.Gen.Pre_finite_inputs
import proofs.«161073_j47416438948092_1_alg».proof.Proof.KernelRun
import proofs.«161073_j47416438948092_1_alg».proof.Proof.RefRun
import proofs.«161073_j47416438948092_1_alg».proof.Proof.Bridge
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.HandRun.run (F := Ideal) m ρ)

theorem preserves : Cert.preserves_Kernel_KernelIdeal := trivial

/-- Both runs end at the network's output of the kernel's launch arguments. -/
theorem algebraic : Cert.algebraic_KernelIdeal_ReferenceIdeal := by
  intro m ρ m' ρ' _ hagree
  refine ⟨fun c => Cert.Gcn.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.Gcn.kernel_value m ρ c), (h c).2⟩)
      (Cert.KernelIdeal.GenRun.run (F := Ideal) m ρ)
  · refine (θ_run Cert.ReferenceIdeal.defs _ _).mono (fun _ h c => ⟨(h c).1.trans ?_, (h c).2⟩)
      (Cert.ReferenceIdeal.HandRun.run (F := Ideal) m' ρ')
    obtain ⟨e0, e1, e2, e3, e4, e5, e6, e7⟩ := hagree c
    rw [e0, e1, e2, e3, e4, e5, e6, e7]
    exact Cert.Gcn.reference_value _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
